-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S2x8192 : Shape := ⟨2, ![2, 8192]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel
  bcast_S_S2x8192 : S_.BroadcastsInDim S2x8192 (![] : Fin 0 → Fin S2x8192.rank)
  reducesTo_S2x8192_S_d0_1 : S2x8192.ReducesTo [0, 1] S_

variable [Facts]

def fn_part1 {F : FTy → Type} [FloatOps F] (main_v13 : IVec S_ 1) (main_v16 : IVec S2x8192 1) : IVec S_ 1 :=
  let main_c_5 : IVec S_ 1 := constantI S_ 1 1#1
  let main_v17 : IVec S_ 1 := (fun x v => Host.reduce IntOp.andi x v reducesTo_S2x8192_S_d0_1 h_S_) main_v16 main_c_5
  let main_v18 : IVec S_ 1 := andi main_v13 main_v17
  main_v18

def fn {F : FTy → Type} [FloatOps F] (main_arg0 : FVec F S2x8192x3 .f32) (main_arg1 : FVec F S2x8192x3 .f32) (main_arg2 : FVec F S2x8192 .f32) (main_arg3 : FVec F S2x8192 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  let main_v9 : FVec F S2x8192 .f32 := Host.absf main_arg2
  let main_cst_2 : FVec F S_ .f32 := constant S_ .f32 0x7F800000#32
  let main_v10 : FVec F S2x8192 .f32 := broadcastInDim S2x8192 ![] bcast_S_S2x8192 main_cst_2
  let main_v11 : IVec S2x8192 1 := cmpf .olt main_v9 main_v10
  let main_c_3 : IVec S_ 1 := constantI S_ 1 1#1
  let main_v12 : IVec S_ 1 := (fun x v => Host.reduce IntOp.andi x v reducesTo_S2x8192_S_d0_1 h_S_) main_v11 main_c_3
  let main_v13 : IVec S_ 1 := andi main_v8 main_v12
  let main_v14 : FVec F S2x8192 .f32 := Host.absf main_arg3
  let main_cst_4 : FVec F S_ .f32 := constant S_ .f32 0x7F800000#32
  let main_v15 : FVec F S2x8192 .f32 := broadcastInDim S2x8192 ![] bcast_S_S2x8192 main_cst_4
  let main_v16 : IVec S2x8192 1 := cmpf .olt main_v14 main_v15
  fn_part1 (F := F) main_v13 main_v16
-- ==== Kernel.lean ====
abbrev S2x8192x3 : Shape := ⟨3, ![2, 8192, 3]⟩
abbrev S2x8192 : Shape := ⟨2, ![2, 8192]⟩
abbrev S2x8192x1 : Shape := ⟨3, ![2, 8192, 1]⟩
abbrev S1x512x3 : Shape := ⟨3, ![1, 512, 3]⟩
abbrev S1x8192x3 : Shape := ⟨3, ![1, 8192, 3]⟩
abbrev S1x512x1 : Shape := ⟨3, ![1, 512, 1]⟩
abbrev S512x3 : Shape := ⟨2, ![512, 3]⟩
abbrev S512 : Shape := ⟨1, ![512]⟩
abbrev S512x1 : Shape := ⟨2, ![512, 1]⟩
abbrev S1x2048x3 : Shape := ⟨3, ![1, 2048, 3]⟩
abbrev S2048x3 : Shape := ⟨2, ![2048, 3]⟩
abbrev S2048 : Shape := ⟨1, ![2048]⟩
abbrev S3x2048 : Shape := ⟨2, ![3, 2048]⟩
abbrev S512x2048 : Shape := ⟨2, ![512, 2048]⟩
abbrev S1x2048 : Shape := ⟨2, ![1, 2048]⟩
abbrev S1x8192x1 : Shape := ⟨3, ![1, 8192, 1]⟩
abbrev S1x2048x1 : Shape := ⟨3, ![1, 2048, 1]⟩
abbrev S2048x1 : Shape := ⟨2, ![2048, 1]⟩

abbrev nBuf : Space → Nat
  | .hbm => 12
  | .vmem => 20
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .hbm, ⟨3, _⟩ => ⟨S2x8192, .f32⟩
  | .hbm, ⟨4, _⟩ => ⟨S2x8192x1, .f32⟩
  | .hbm, ⟨5, _⟩ => ⟨S2x8192x1, .f32⟩
  | .hbm, ⟨6, _⟩ => ⟨S2x8192x1, .f32⟩
  | .hbm, ⟨7, _⟩ => ⟨S2x8192x1, .f32⟩
  | .hbm, ⟨8, _⟩ => ⟨S2x8192x1, .f32⟩
  | .hbm, ⟨9, _⟩ => ⟨S2x8192, .f32⟩
  | .hbm, ⟨10, _⟩ => ⟨S2x8192, .f32⟩
  | .hbm, ⟨11, _⟩ => ⟨S2x8192, .f32⟩
  | .local _ .vmem, ⟨0, _⟩ => ⟨S1x512x3, .f32⟩
  | .local _ .vmem, ⟨1, _⟩ => ⟨S1x512x3, .f32⟩
  | .local _ .vmem, ⟨2, _⟩ => ⟨S1x8192x3, .f32⟩
  | .local _ .vmem, ⟨3, _⟩ => ⟨S1x8192x3, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S1x512x3, .f32⟩
  | .local _ .vmem, ⟨13, _⟩ => ⟨S1x512x3, .f32⟩
  | .local _ .vmem, ⟨14, _⟩ => ⟨S1x8192x3, .f32⟩
  | .local _ .vmem, ⟨15, _⟩ => ⟨S1x8192x3, .f32⟩
  | .local _ .vmem, ⟨16, _⟩ => ⟨S1x8192x1, .f32⟩
  | .local _ .vmem, ⟨17, _⟩ => ⟨S1x8192x1, .f32⟩
  | .local _ .vmem, ⟨18, _⟩ => ⟨S1x512x1, .f32⟩
  | .local _ .vmem, ⟨19, _⟩ => ⟨S1x512x1, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8192x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S2x8192_S2x8192x1_0_1 : S2x8192.BroadcastsInDim S2x8192x1 (![0, 1] : Fin 2 → Fin S2x8192x1.rank)
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x512x1_S1x512x1_0_0_0 : ∀ a, (![0, 0, 0] : Fin 3 → Nat) a + S1x512x1.size a ≤ S1x512x1.size a
  h_S1x512x1 : 0 < S1x512x1.numel
  shapeCasts_S1x512x1_S512 : S1x512x1.ShapeCasts S512
  shapeCasts_S512_S512x1 : S512.ShapeCasts S512x1
  broadcasts_S512x1_S512x3 : S512x1.Broadcasts S512x3
  reduces_S512x3_S512 : S512x3.Reduces [1] S512
  inb_S1x8192x3_S1x2048x3_0_0_0 : ∀ a, (![0, 0, 0] : Fin 3 → Nat) a + S1x2048x3.size a ≤ S1x8192x3.size a
  h_S1x2048x3 : 0 < S1x2048x3.numel
  shapeCasts_S1x2048x3_S2048x3 : S1x2048x3.ShapeCasts S2048x3
  reduces_S2048x3_S2048 : S2048x3.Reduces [1] S2048
  transposes_S2048x3_p1_0_S3x2048 : S2048x3.Transposes [1, 0] S3x2048
  shapeCasts_S2048_S1x2048 : S2048.ShapeCasts S1x2048
  broadcasts_S512x1_S512x2048 : S512x1.Broadcasts S512x2048
  broadcasts_S1x2048_S512x2048 : S1x2048.Broadcasts S512x2048
  reduces_S512x2048_S512 : S512x2048.Reduces [1] S512
  inb_S1x8192x3_S1x2048x3_0_2048_0 : ∀ a, (![0, 2048, 0] : Fin 3 → Nat) a + S1x2048x3.size a ≤ S1x8192x3.size a
  inb_S1x8192x3_S1x2048x3_0_4096_0 : ∀ a, (![0, 4096, 0] : Fin 3 → Nat) a + S1x2048x3.size a ≤ S1x8192x3.size a
  inb_S1x8192x3_S1x2048x3_0_6144_0 : ∀ a, (![0, 6144, 0] : Fin 3 → Nat) a + S1x2048x3.size a ≤ S1x8192x3.size a
  shapeCasts_S512_S1x512x1 : S512.ShapeCasts S1x512x1
  inb_S1x8192x1_S1x2048x1_0_0_0 : ∀ a, (![0, 0, 0] : Fin 3 → Nat) a + S1x2048x1.size a ≤ S1x8192x1.size a
  h_S1x2048x1 : 0 < S1x2048x1.numel
  shapeCasts_S1x2048x1_S2048 : S1x2048x1.ShapeCasts S2048
  shapeCasts_S2048_S2048x1 : S2048.ShapeCasts S2048x1
  broadcasts_S2048x1_S2048x3 : S2048x1.Broadcasts S2048x3
  inb_S1x8192x1_S1x2048x1_0_2048_0 : ∀ a, (![0, 2048, 0] : Fin 3 → Nat) a + S1x2048x1.size a ≤ S1x8192x1.size a
  inb_S1x8192x1_S1x2048x1_0_4096_0 : ∀ a, (![0, 4096, 0] : Fin 3 → Nat) a + S1x2048x1.size a ≤ S1x8192x1.size a
  inb_S1x8192x1_S1x2048x1_0_6144_0 : ∀ a, (![0, 6144, 0] : Fin 3 → Nat) a + S1x2048x1.size a ≤ S1x8192x1.size a
  shapeCasts_S2x8192x1_S2x8192 : S2x8192x1.ShapeCasts S2x8192
  dot_S512x3_S3x2048_S512x2048_1_0_0_1_n_n_wf : DotDims.WF S512x3 S3x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S2x8192x3.size a
  hwx0_0 : ∀ i : grid0.Coords, EltTy.bits .f32 = 32 ∨ (Rect.block (s := S2x8192x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S2x8192x3.size a
  hwx0_1 : ∀ i : grid0.Coords, EltTy.bits .f32 = 32 ∨ (Rect.block (s := S2x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S2x8192x1.size a
  hwx0_2 : ∀ i : grid0.Coords, EltTy.bits .f32 = 32 ∨ (Rect.block (s := S2x8192x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x8192x1.size a
  hwx0_3 : ∀ i : grid0.Coords, EltTy.bits .f32 = 32 ∨ (Rect.block (s := S2x8192x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x8192x1.size a
  hwx0_4 : ∀ i : grid0.Coords, EltTy.bits .f32 = 32 ∨ (Rect.block (s := S2x8192x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x8192x1.size a
  hwx0_5 : ∀ i : grid0.Coords, EltTy.bits .f32 = 32 ∨ (Rect.block (s := S2x8192x1) S1x512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x3.size a ≤ S2x8192x3.size a
  hwx1_0 : ∀ i : grid1.Coords, EltTy.bits .f32 = 32 ∨ (Rect.block (s := S2x8192x3) S1x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x3.size a ≤ S2x8192x3.size a
  hwx1_1 : ∀ i : grid1.Coords, EltTy.bits .f32 = 32 ∨ (Rect.block (s := S2x8192x3) S1x8192x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192x1.size a ≤ S2x8192x1.size a
  hwx1_2 : ∀ i : grid1.Coords, EltTy.bits .f32 = 32 ∨ (Rect.block (s := S2x8192x1) S1x8192x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1.size a ≤ S2x8192x1.size a
  hwx1_3 : ∀ i : grid1.Coords, EltTy.bits .f32 = 32 ∨ (Rect.block (s := S2x8192x1) S1x512x1.size (cc1_transform_3 i) (hinb1_3 i)).WholeWords (EltTy.packing .f32)

variable [Facts₀]

def dot_S512x3_S3x2048_S512x2048_1_0_0_1_n_n : DotDims S512x3 S3x2048 S512x2048 where
  lhsContracting := [1]
  rhsContracting := [0]
  lhsNonContracting := [0]
  rhsNonContracting := [1]
  lhsBatch := []
  rhsBatch := []
  wf := dot_S512x3_S3x2048_S512x2048_1_0_0_1_n_n_wf

abbrev win0_0 : Pipeline.Window sig grid0 :=
  Pipeline.Window.ofSpec (Memref.whole main_arg1) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x8192x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x8192x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x8192x3 : Shape := ⟨3, ![2, 8192, 3]⟩
abbrev S2x8192 : Shape := ⟨2, ![2, 8192]⟩
abbrev S2x8192x1 : Shape := ⟨3, ![2, 8192, 1]⟩
abbrev S_ : Shape := ⟨0, ![]⟩
abbrev S2x1x8192 : Shape := ⟨3, ![2, 1, 8192]⟩
abbrev S2x8192x8192 : Shape := ⟨3, ![2, 8192, 8192]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .hbm, ⟨3, _⟩ => ⟨S2x8192, .f32⟩
  | .hbm, ⟨4, _⟩ => ⟨S2x8192x1, .f32⟩
  | .hbm, ⟨5, _⟩ => ⟨S2x8192x3, .f32⟩
  | .hbm, ⟨6, _⟩ => ⟨S2x8192x3, .f32⟩
  | .hbm, ⟨7, _⟩ => ⟨S2x8192x3, .f32⟩
  | .hbm, ⟨8, _⟩ => ⟨S_, .f32⟩
  | .hbm, ⟨9, _⟩ => ⟨S2x8192, .f32⟩
  | .hbm, ⟨10, _⟩ => ⟨S2x8192x3, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S2x1x8192, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S2x8192x8192, .f32⟩
  | .hbm, ⟨19, _⟩ => ⟨S_, .f32⟩
  | .hbm, ⟨20, _⟩ => ⟨S2x8192x8192, .f32⟩
  | .hbm, ⟨21, _⟩ => ⟨S2x8192x8192, .f32⟩
  | .hbm, ⟨22, _⟩ => ⟨S2x8192x8192, .f32⟩
  | .hbm, ⟨23, _⟩ => ⟨S_, .f32⟩
  | .hbm, ⟨24, _⟩ => ⟨S2x8192x8192, .f32⟩
  | .hbm, ⟨25, _⟩ => ⟨S2x8192x8192, .f32⟩
  | .hbm, ⟨26, _⟩ => ⟨S_, .f32⟩
  | .hbm, ⟨27, _⟩ => ⟨S2x8192, .f32⟩
  | .hbm, ⟨28, _⟩ => ⟨S2x8192, .f32⟩
  | .hbm, ⟨29, _⟩ => ⟨S_, .f32⟩
  | .hbm, ⟨30, _⟩ => ⟨S2x8192, .f32⟩
  | .hbm, ⟨31, _⟩ => ⟨S2x8192, .f32⟩
  | .hbm, ⟨32, _⟩ => ⟨S_, .f32⟩
  | .hbm, ⟨33, _⟩ => ⟨S2x8192, .f32⟩
  | .hbm, ⟨34, _⟩ => ⟨S2x8192, .f32⟩
  | .hbm, ⟨35, _⟩ => ⟨S_, .f32⟩
  | .hbm, ⟨36, _⟩ => ⟨S2x8192, .f32⟩
  | .hbm, ⟨37, _⟩ => ⟨S2x8192, .f32⟩
  | .hbm, ⟨38, _⟩ => ⟨S2x8192, .f32⟩
  | .hbm, ⟨39, _⟩ => ⟨S2x8192, .f32⟩
  | .hbm, ⟨40, _⟩ => ⟨S_, .f32⟩
  | .hbm, ⟨41, _⟩ => ⟨S2x8192, .f32⟩
  | .hbm, ⟨42, _⟩ => ⟨S2x8192, .f32⟩
  | .hbm, ⟨43, _⟩ => ⟨S2x8192, .f32⟩
  | .hbm, ⟨44, _⟩ => ⟨S2x8192, .f32⟩
  | .hbm, ⟨45, _⟩ => ⟨S2x8192, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S2x8192_S2x8192x1_0_1 : S2x8192.BroadcastsInDim S2x8192x1 (![0, 1] : Fin 2 → Fin S2x8192x1.rank)
  bcast_S2x8192x1_S2x8192x3_0_1_2 : S2x8192x1.BroadcastsInDim S2x8192x3 (![0, 1, 2] : Fin 3 → Fin S2x8192x3.rank)
  reducesTo_S2x8192x3_S2x8192_d2 : S2x8192x3.ReducesTo [2] S2x8192
  h_S_ : 0 < S_.numel
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  bcast_S_S2x8192 : S_.BroadcastsInDim S2x8192 (![] : Fin 0 → Fin S2x8192.rank)
  reducesTo_S2x8192x8192_S2x8192_d1 : S2x8192x8192.ReducesTo [1] S2x8192
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.Spec.lean ====
/-
  The two-sided nearest-neighbour loss between two batches of point clouds, as scalar functions over the extended reals.

  A batch holds two clouds of 8192 points of space. A predicted point is first scaled by its mask, `p = pred · mask`;
  the squared distance between a masked predicted point `p` and a ground-truth point `g` is taken by the expansion
  `‖p‖² + ‖g‖² − 2·(p·g)` and clamped at zero from below. Each predicted point's loss is a hundred times the root of
  its least squared distance over the ground-truth cloud, each ground-truth point's the same over the predicted cloud.
  The predicted side is returned masked, and once more weighted by a confidence with the logarithm of the confidence
  taken off before the mask.

  The float words both programs spell alike (two, zero, a hundred, one, the infinity a minimum starts from) are kept as
  the words' values, never evaluated: the same word is the same number on both sides.

  Two laws of order and arithmetic, which hold on every extended real, join the programs that compute these numbers in
  different arrangements: a minimum over 8192 indices is the minimum of the four minima over the consecutive quarters
  (taken one after the other, each folded in from the same start), and the expansion is symmetric in its two points.
-/
import Idealize.ShloMosaic.Lib.ValueIdx
import Idealize.ShloMosaic.PureOps.Ideal

noncomputable section

namespace Cert.Chamfer

open Idealize.ShloMosaic Idealize.ShloMosaic.ValueIdx

/-- A batch of two clouds of 8192 points with three coordinates. -/
abbrev Pts : Shape := ⟨3, ![2, 8192, 3]⟩
/-- One number per point of the batch. -/
abbrev Per : Shape := ⟨2, ![2, 8192]⟩

/-- The words both programs share, as the numbers they denote. -/
abbrev wInf : EReal := Ideal.ofBits .f32 0x7F800000#32
abbrev wTwo : EReal := Ideal.ofBits .f32 0x40000000#32
abbrev wZero : EReal := Ideal.ofBits .f32 0x00000000#32
abbrev wHundred : EReal := Ideal.ofBits .f32 0x42C80000#32
abbrev wOne : EReal := Ideal.ofBits .f32 0x3F800000#32

/-- The clamped expansion `max (‖p‖² + ‖g‖² − 2·(p·g)) 0` of two points given by their coordinates. -/
def expand (p g : Fin 3 → EReal) : EReal :=
  max (((∑ d : Fin 3, p d * p d) + ∑ d : Fin 3, g d * g d) - wTwo * ∑ d : Fin 3, p d * g d) wZero

/-- With the two square norms added the other way round and the inner product taken the other way round: the same number. -/
theorem expand_symm (p g : Fin 3 → EReal) :
    max (((∑ d : Fin 3, g d * g d) + ∑ d : Fin 3, p d * p d) - wTwo * ∑ d : Fin 3, g d * p d) wZero = expand p g := by
  unfold expand
  rw [add_comm (∑ d : Fin 3, g d * g d)]
  congr 3
  exact Finset.sum_congr rfl fun d _ => mul_comm _ _

section
variable (gt pred : Pts.Idx → EReal) (mask conf : Per.Idx → EReal)

/-- Predicted point `i` of cloud `b`, scaled by its mask. -/
def mpt (b : Fin 2) (i : Fin 8192) : Fin 3 → EReal := fun d => pred (ix3 b i d) * mask (ix2 b i)

/-- Ground-truth point `j` of cloud `b`. -/
def gpt (b : Fin 2) (j : Fin 8192) : Fin 3 → EReal := fun d => gt (ix3 b j d)

/-- The clamped squared distance from masked predicted point `i` to ground-truth point `j`. -/
def sqd (b : Fin 2) (i j : Fin 8192) : EReal := expand (mpt pred mask b i) (gpt gt b j)

/-- A predicted point's least squared distance over the ground-truth cloud. -/
def nearGt (b : Fin 2) (i : Fin 8192) : EReal :=
  (Finset.univ : Finset (Fin 8192)).fold min wInf fun j => sqd gt pred mask b i j

/-- A ground-truth point's least squared distance over the predicted cloud. -/
def nearPred (b : Fin 2) (j : Fin 8192) : EReal :=
  (Finset.univ : Finset (Fin 8192)).fold min wInf fun i => sqd gt pred mask b i j

/-- A predicted point's loss before the mask: a hundred roots of its least squared distance. -/
def lossPred (b : Fin 2) (i : Fin 8192) : EReal := Ideal.sqrt (nearGt gt pred mask b i) * wHundred

/-- The masked loss of a predicted point. -/
def lossMasked (b : Fin 2) (i : Fin 8192) : EReal := lossPred gt pred mask b i * mask (ix2 b i)

/-- The confidence-weighted loss of a predicted point, the confidence's logarithm taken off, masked. -/
def lossConf (b : Fin 2) (i : Fin 8192) : EReal :=
  (lossPred gt pred mask b i * conf (ix2 b i) - wOne * Ideal.log (conf (ix2 b i))) * mask (ix2 b i)

/-- A ground-truth point's loss. -/
def lossGt (b : Fin 2) (j : Fin 8192) : EReal := Ideal.sqrt (nearPred gt pred mask b j) * wHundred

end

/-! ## A minimum over 8192 indices, a quarter at a time -/

/-- Index `q` of quarter `k`. -/
def quarter (k : Fin 4) (q : Fin 2048) : Fin 8192 := ⟨k.val * 2048 + q.val, by have := k.isLt; have := q.isLt; omega⟩

/-- The minimum of `f` over quarter `k`, folded from `b`. -/
def qmin (b : EReal) (f : Fin 8192 → EReal) (k : Fin 4) : EReal :=
  (Finset.univ : Finset (Fin 2048)).fold min b fun q => f (quarter k q)

/-- Folding the four quarter minima into `b` one after the other gives the minimum over all 8192 indices folded from `b`:
    both sides are the greatest number below `b` and below every value of `f`. -/
theorem fold_min_quarters (b : EReal) (f : Fin 8192 → EReal) :
    min (min (min (min b (qmin b f 0)) (qmin b f 1)) (qmin b f 2)) (qmin b f 3)
      = (Finset.univ : Finset (Fin 8192)).fold min b f := by
  apply le_antisymm
  · rw [Finset.le_fold_min]
    refine ⟨(min_le_left _ _).trans ((min_le_left _ _).trans ((min_le_left _ _).trans (min_le_left _ _))), fun j _ => ?_⟩
    have hj := j.isLt
    have key : ∀ k : Fin 4, k.val * 2048 ≤ j.val → j.val < k.val * 2048 + 2048 → qmin b f k ≤ f j := fun k h1 h2 => by
      have e : j = quarter k ⟨j.val - k.val * 2048, by omega⟩ := Fin.ext (by show j.val = k.val * 2048 + (j.val - k.val * 2048); omega)
      unfold qmin
      rw [Finset.fold_min_le]
      exact Or.inr ⟨_, Finset.mem_univ _, le_of_eq (congrArg f e).symm⟩
    by_cases h0 : j.val < 2048
    · exact ((min_le_left _ _).trans ((min_le_left _ _).trans ((min_le_left _ _).trans (min_le_right _ _)))).trans
        (key 0 (by show 0 * 2048 ≤ _; omega) (by show _ < 0 * 2048 + 2048; omega))
    by_cases h1 : j.val < 4096
    · exact ((min_le_left _ _).trans ((min_le_left _ _).trans (min_le_right _ _))).trans
        (key 1 (by show 1 * 2048 ≤ _; omega) (by show _ < 1 * 2048 + 2048; omega))
    by_cases h2 : j.val < 6144
    · exact ((min_le_left _ _).trans (min_le_right _ _)).trans
        (key 2 (by show 2 * 2048 ≤ _; omega) (by show _ < 2 * 2048 + 2048; omega))
    · exact (min_le_right _ _).trans (key 3 (by show 3 * 2048 ≤ _; omega) (by show _ < 3 * 2048 + 2048; omega))
  · have hb : (Finset.univ : Finset (Fin 8192)).fold min b f ≤ b := by
      rw [Finset.fold_min_le]; exact Or.inl le_rfl
    have hq : ∀ k : Fin 4, (Finset.univ : Finset (Fin 8192)).fold min b f ≤ qmin b f k := fun k => by
      unfold qmin
      rw [Finset.le_fold_min]
      refine ⟨hb, fun q _ => ?_⟩
      rw [Finset.fold_min_le]
      exact Or.inr ⟨_, Finset.mem_univ _, le_rfl⟩
    exact le_min (le_min (le_min (le_min hb (hq 0)) (hq 1)) (hq 2)) (hq 3)

end Cert.Chamfer

end
-- ==== Proof.LibColumns.lean ====
/-
  Column forms of the layout operations, read at an index written by coordinates.

  A vector of `a` numbers is kept as a column `[a, 1]`, as a block `[1, a, 1]`, or flat `[a]`; a shape cast between these
  keeps the row-major position, which is the one coordinate `i` in every form. A column broadcast to `[a, b]` reads, at
  `(i, j)`, the column's entry `i`. The extents are arbitrary; every index is built by `ix1`, `ix2`, `ix3`.
-/
import Idealize.ShloMosaic.Lib.ValueIdx
import Idealize.ShloMosaic.Lib.Pipeline.Value

noncomputable section

namespace Cert.Lib.Columns

open Idealize.ShloMosaic Idealize.ShloMosaic.ValueIdx

variable {α : Type}

/-- `[1, a, 1]` cast to `[a]`: at `i` the operand at `(0, i, 0)`. -/
theorem shapeCast_1a1_a_apply {a : ℕ} (x : (⟨3, ![1, a, 1]⟩ : Shape).Idx → α)
    (h : (⟨3, ![1, a, 1]⟩ : Shape).ShapeCasts ⟨1, ![a]⟩) (i : Fin a) :
    shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    omega)

/-- `[a]` cast to `[1, a, 1]`: at `(u, i, v)` the operand at `i`. -/
theorem shapeCast_a_1a1_apply {a : ℕ} (x : (⟨1, ![a]⟩ : Shape).Idx → α)
    (h : (⟨1, ![a]⟩ : Shape).ShapeCasts ⟨3, ![1, a, 1]⟩) (u : Fin 1) (i : Fin a) (v : Fin 1) :
    shapeCast ⟨3, ![1, a, 1]⟩ x h (ix3 u i v) = x (ix1 i) :=
  shapeCast_apply x h _ _ (by
    have hu : u.val = 0 := by omega
    have hv : v.val = 0 := by omega
    rw [Shape.rowMajor_val_three, Shape.rowMajor_val_one]
    show i.val = (u.val * a + i.val) * 1 + v.val
    rw [hu, hv]
    omega)

/-- `[a]` cast to the column `[a, 1]`: at `(i, u)` the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]`: at `(i, j)` the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.Columns

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.Tile.lean ====
/-
  One tile of the clamped squared-distance table, and its row minima, read at an index.

  A tile pairs 512 "row" points with 2048 "column" points, both given by their three coordinates. The row points come
  with their square norms in a column. The tile holds, at row `r` and column `q`,
  `max (‖row r‖² + ‖col q‖² − 2·(row r · col q)) 0`: the column points' square norms are a sum over the coordinate axis,
  laid out as a row and broadcast down; the row norms' column is broadcast across; the inner products are one matrix
  product of the row points with the transposed column points into the zero accumulator; the literal two and the literal
  zero are splat. Row `r`'s minimum over the tile is the fold of `min`, from the word the reduction starts at, over the
  2048 columns.
-/
import proofs.«149853_j5085241278567_1_alg».proof.Proof.Spec
import proofs.«149853_j5085241278567_1_alg».proof.Proof.LibColumns
import proofs.«149853_j5085241278567_1_alg».proof.Proof.LibPlainMatmul
import Idealize.ShloMosaic.Lib.ValueLayout
import Idealize.ShloMosaic.PureOps.Ideal.Laws
import Idealize.ShloMosaic.PureOps.Reduce

noncomputable section

namespace Cert.Chamfer.Tile

open Idealize.ShloMosaic Idealize.ShloMosaic.ValueIdx Cert.Chamfer Cert.Lib.Columns

abbrev Rows : Shape := ⟨2, ![512, 3]⟩
abbrev RowCol : Shape := ⟨2, ![512, 1]⟩
abbrev Cols : Shape := ⟨2, ![2048, 3]⟩
abbrev ColsT : Shape := ⟨2, ![3, 2048]⟩
abbrev Flat512 : Shape := ⟨1, ![512]⟩
abbrev Flat2048 : Shape := ⟨1, ![2048]⟩
abbrev Row2048 : Shape := ⟨2, ![1, 2048]⟩
abbrev Tbl : Shape := ⟨2, ![512, 2048]⟩

/-- A one-axis `min` reduction at the ideal values: the fold of `min` from the accumulator's value over that axis's
    coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The square norm of the point in row `q` of an `[n, 3]` array of points: the sum over its three coordinates. -/
theorem sqnorm_apply {n : ℕ} (X : FVec Ideal ⟨2, ![n, 3]⟩ .f32) (h : (⟨2, ![n, 3]⟩ : Shape).Reduces [1] ⟨1, ![n]⟩)
    (hφ : FKind.Formats .f32) (hacc : (0x00000000#32 : BitVec 32) = FKind.add.neutral .f32 hφ) (q : Fin n) :
    multiReduction .add [1] ⟨1, ![n]⟩ (mulf X X) 0x00000000#32 h hφ hacc (ix1 q) = ∑ d : Fin 3, X (ix2 q d) * X (ix2 q d) := by
  refine (Ideal.multiReduction_add_single (mulf X X) _ h hφ hacc (ix1 q)).trans ?_
  show ∑ d : Fin 3, (mulf X X) (h.lift (ix1 q) d) = _
  refine Finset.sum_congr rfl fun d _ => ?_
  have e : h.lift (ix1 q) d = ix2 q d := funext fun a => Fin.ext (by match a with | ⟨0, _⟩ => rfl | ⟨1, _⟩ => rfl)
  rw [e]; rfl

/-- The tile at `(r, q)`. -/
theorem tile_apply (P : FVec Ideal Rows .f32) (psq : FVec Ideal RowCol .f32) (G : FVec Ideal Cols .f32)
    (hr : Cols.Reduces [1] Flat2048) (hφ : FKind.Formats .f32) (hacc : (0x00000000#32 : BitVec 32) = FKind.add.neutral .f32 hφ)
    (ht : Cols.Transposes [1, 0] ColsT) (hc : Flat2048.ShapeCasts Row2048)
    (hb1 : RowCol.Broadcasts Tbl) (hb2 : Row2048.Broadcasts Tbl)
    (D : DotDims Rows ColsT Tbl) (hD : D = DotDims.plain 512 3 2048) (r : Fin 512) (q : Fin 2048) :
    maximumf (subf (addf (broadcastTo Tbl psq hb1)
          (broadcastTo Tbl (shapeCast Row2048 (multiReduction .add [1] Flat2048 (mulf G G) 0x00000000#32 hr hφ hacc) hc) hb2))
        (mulf (broadcast Tbl (Scalar.ofBits .f32 0x40000000#32))
          (matmul D none P (transpose ColsT [1, 0] G ht) (constant Tbl .f32 0x00000000#32))))
      (broadcast Tbl (Scalar.ofBits .f32 0x00000000#32)) (ix2 r q)
    = max ((psq (ix2 r (0 : Fin 1)) + ∑ d : Fin 3, G (ix2 q d) * G (ix2 q d)) - wTwo * ∑ d : Fin 3, P (ix2 r d) * G (ix2 q d)) wZero := by
  subst hD
  rw [maximumf_apply, subf_apply, addf_apply, mulf_apply, broadcast_apply, broadcast_apply,
    broadcastTo_a1_ab_apply, broadcastTo_1b_ab_apply, shapeCast_a_1a_apply, sqnorm_apply]
  rw [show matmul (DotDims.plain 512 3 2048) none P (transpose ColsT [1, 0] G ht) (constant Tbl .f32 0x00000000#32) (ix2 r q)
      = ∑ k : Fin 3, P (ix2 r k) * transpose ColsT [1, 0] G ht (ix2 k q)
    from Cert.Lib.PlainMatmul.matmul_zero_apply none P (transpose ColsT [1, 0] G ht) r q]
  have eT : ∀ k : Fin 3, transpose ColsT [1, 0] G ht (ix2 k q) = G (ix2 q k) := fun k => transpose_ix2_apply G ht k q
  simp only [eT]
  rfl

/-- Row `r`'s minimum over the tile: the fold of `min` over the 2048 columns. -/
theorem tileMin_apply (T : FVec Ideal Tbl .f32) (f : Fin 2048 → EReal) (r : Fin 512) (hT : ∀ q : Fin 2048, T (ix2 r q) = f q)
    (hm : Tbl.Reduces [1] Flat512) (hφ : FKind.Formats .f32) (hacc : (0x7F800000#32 : BitVec 32) = FKind.minimumf.neutral .f32 hφ) :
    multiReduction .minimumf [1] Flat512 T 0x7F800000#32 hm hφ hacc (ix1 r)
      = (Finset.univ : Finset (Fin 2048)).fold min wInf f := by
  refine (multiReduction_minimumf_single T _ hm hφ hacc (ix1 r)).trans ?_
  show (Finset.univ : Finset (Fin 2048)).fold min wInf (T ∘ hm.lift (ix1 r)) = _
  have e : (T ∘ hm.lift (ix1 r) : Fin 2048 → EReal) = f := funext fun q => by
    have eq : hm.lift (ix1 r) q = ix2 r q := funext fun a => Fin.ext (by match a with | ⟨0, _⟩ => rfl | ⟨1, _⟩ => rfl)
    show T (hm.lift (ix1 r) q) = f q
    rw [eq, hT]
  exact congrArg (fun g : Fin 2048 → EReal => (Finset.univ : Finset (Fin 2048)).fold min wInf g) e

end Cert.Chamfer.Tile

end
-- ==== Proof.Body.lean ====
/-
  What one grid point of each of the two kernels leaves in its output blocks, read at an index.

  Both kernels hold 512 "row" points and sweep the 8192 points of the other cloud in four consecutive quarters of 2048
  "column" points. For each quarter they form the tile of clamped squared distances (rows' square norms broadcast
  across, columns' square norms broadcast down, minus twice the matrix of inner products, clamped at zero) and take
  each row's minimum over it; the four minima are folded, one after the other, into a running minimum that starts at
  the infinity word. By the law of the quarters the running minimum is the row's minimum over all 8192 columns.

  The first kernel's rows are predicted points scaled by their mask and its columns the ground-truth points: the tile's
  entry is the clamped expansion as the specification writes it. It stores a hundred roots of the minimum, masked, and
  the confidence-weighted form of the same. The second kernel's rows are ground-truth points and its columns the masked
  predicted points, so its entry is the expansion with the two points exchanged, the same number by the symmetry of
  the expansion. It stores a hundred roots of the minimum.
-/
import proofs.«149853_j5085241278567_1_alg».proof.Proof.Gen.KernelIdeal.Frame
import proofs.«149853_j5085241278567_1_alg».proof.Proof.Tile

set_option maxRecDepth 16384

noncomputable section

namespace Cert.KernelIdeal.Body

open Cert.KernelIdeal Cert.KernelIdeal.Gen
open Idealize.ShloMosaic Idealize.ShloMosaic.ValueIdx Cert.Chamfer Cert.Lib.Columns

/-! ## The shared pieces -/

/-- The clamped tile of the rows `P` (their square norms the column `psq`) against the columns `G`. -/
def tile (P : FVec Ideal S512x3 .f32) (psq : FVec Ideal S512x1 .f32) (G : FVec Ideal S2048x3 .f32) : FVec Ideal S512x2048 .f32 :=
  maximumf (subf (addf (broadcastTo S512x2048 psq broadcasts_S512x1_S512x2048)
        (broadcastTo S512x2048 (shapeCast S1x2048 (multiReduction .add [1] S2048 (mulf G G) 0x00000000#32 reduces_S2048x3_S2048 (.inl rfl) rfl) shapeCasts_S2048_S1x2048) broadcasts_S1x2048_S512x2048))
      (mulf (broadcast S512x2048 (Scalar.ofBits .f32 0x40000000#32))
        (matmul dot_S512x3_S3x2048_S512x2048_1_0_0_1_n_n none P (transpose S3x2048 [1, 0] G transposes_S2048x3_p1_0_S3x2048) (constant S512x2048 .f32 0x00000000#32))))
    (broadcast S512x2048 (Scalar.ofBits .f32 0x00000000#32))

/-- Each row's minimum over the tile. -/
def tmin (P : FVec Ideal S512x3 .f32) (psq : FVec Ideal S512x1 .f32) (G : FVec Ideal S2048x3 .f32) : FVec Ideal S512 .f32 :=
  multiReduction .minimumf [1] S512 (tile P psq G) 0x7F800000#32 reduces_S512x2048_S512 (.inl rfl) rfl

/-- The running minimum after the four quarters. -/
def near4 (P : FVec Ideal S512x3 .f32) (psq : FVec Ideal S512x1 .f32) (G0 G1 G2 G3 : FVec Ideal S2048x3 .f32) : FVec Ideal S512 .f32 :=
  minimumf (minimumf (minimumf (minimumf (broadcast S512 (Scalar.ofBits .f32 0x7F800000#32)) (tmin P psq G0)) (tmin P psq G1)) (tmin P psq G2)) (tmin P psq G3)

/-- A hundred roots. -/
def scaled (v : FVec Ideal S512 .f32) : FVec Ideal S512 .f32 := mulf (sqrt v) (broadcast S512 (Scalar.ofBits .f32 0x42C80000#32))

/-- The tile's entry in terms of the row point, its square norm and the column point. -/
def entry (n : EReal) (p g : Fin 3 → EReal) : EReal := max ((n + ∑ d : Fin 3, g d * g d) - wTwo * ∑ d : Fin 3, p d * g d) wZero

theorem tmin_apply (P : FVec Ideal S512x3 .f32) (psq : FVec Ideal S512x1 .f32) (G : FVec Ideal S2048x3 .f32)
    (X : Fin 8192 → Fin 3 → EReal) (k : Fin 4) (hX : ∀ (q : Fin 2048) (d : Fin 3), G (ix2 q d) = X (quarter k q) d) (r : Fin 512) :
    tmin P psq G (ix1 r) = qmin wInf (fun j => entry (psq (ix2 r (0 : Fin 1))) (fun d => P (ix2 r d)) (X j)) k := by
  refine Tile.tileMin_apply (tile P psq G) _ r (fun q => ?_) reduces_S512x2048_S512 (.inl rfl) rfl
  refine (Tile.tile_apply P psq G reduces_S2048x3_S2048 (.inl rfl) rfl transposes_S2048x3_p1_0_S3x2048 shapeCasts_S2048_S1x2048
    broadcasts_S512x1_S512x2048 broadcasts_S1x2048_S512x2048 dot_S512x3_S3x2048_S512x2048_1_0_0_1_n_n rfl r q).trans ?_
  simp only [hX]
  rfl

/-- The running minimum at row `r` is the minimum over all 8192 columns. -/
theorem near4_apply (P : FVec Ideal S512x3 .f32) (psq : FVec Ideal S512x1 .f32) (G0 G1 G2 G3 : FVec Ideal S2048x3 .f32)
    (X : Fin 8192 → Fin 3 → EReal)
    (h0 : ∀ (q : Fin 2048) (d : Fin 3), G0 (ix2 q d) = X (quarter 0 q) d) (h1 : ∀ (q : Fin 2048) (d : Fin 3), G1 (ix2 q d) = X (quarter 1 q) d)
    (h2 : ∀ (q : Fin 2048) (d : Fin 3), G2 (ix2 q d) = X (quarter 2 q) d) (h3 : ∀ (q : Fin 2048) (d : Fin 3), G3 (ix2 q d) = X (quarter 3 q) d)
    (r : Fin 512) :
    near4 P psq G0 G1 G2 G3 (ix1 r)
      = (Finset.univ : Finset (Fin 8192)).fold min wInf (fun j => entry (psq (ix2 r (0 : Fin 1))) (fun d => P (ix2 r d)) (X j)) := by
  rw [← fold_min_quarters]
  unfold near4
  rw [minimumf_apply, minimumf_apply, minimumf_apply, minimumf_apply, broadcast_apply,
    tmin_apply P psq G0 X 0 h0 r, tmin_apply P psq G1 X 1 h1 r, tmin_apply P psq G2 X 2 h2 r, tmin_apply P psq G3 X 3 h3 r]
  rfl

theorem scaled_apply (v : FVec Ideal S512 .f32) (r : Fin 512) : scaled v (ix1 r) = Ideal.sqrt (v (ix1 r)) * wHundred := rfl

end Cert.KernelIdeal.Body

end
-- ==== Proof.Body0.lean ====
/-
  The first kernel (predicted points against the resident ground-truth cloud), one grid point, read at an index.

  The point's blocks are 512 predicted points `x0`, the whole ground-truth cloud `x1` of 8192 points, and the 512
  points' masks `x2` and confidences `x3`. Row `r` of the tile is predicted point `r` scaled by its mask; the square
  norms' column is the sum of its squared coordinates; quarter `k` of the cloud is read through the rectangle that
  starts at row `2048·k`. So the running minimum at `r` is the least clamped expansion of the masked point against the
  whole cloud, and the two stored blocks hold, at `r`, a hundred roots of it times the mask, and that number weighted
  by the confidence, the confidence's logarithm (times the word one) taken off, times the mask.
-/
import proofs.«149853_j5085241278567_1_alg».proof.Proof.Body

set_option maxRecDepth 16384

noncomputable section

namespace Cert.KernelIdeal.Body0

open Cert.KernelIdeal Cert.KernelIdeal.Gen Cert.KernelIdeal.Body
open Idealize.ShloMosaic Idealize.ShloMosaic.ValueIdx Cert.Chamfer Cert.Lib.Columns

theorem hz3 : (![0, 0, 0] : Fin 3 → Nat) = fun _ => 0 := funext fun a => by fin_cases a <;> rfl

/-- Quarter `k` of the resident cloud: the rectangle of 2048 rows from row `2048·k`, its unit axis cast away, holds at
    `(q, d)` coordinate `d` of point `2048·k + q`. -/
theorem quarter_apply (x1 : Vec Ideal S1x8192x3 .f32) (k : Fin 4) (off : Fin 3 → Nat) (hoff : off = ![0, k.val * 2048, 0])
    (inb : ∀ a, off a + S1x2048x3.size a ≤ S1x8192x3.size a) (q : Fin 2048) (d : Fin 3) :
    shapeCast S2048x3 (View.ld x1 (Rect.unit (s := S1x8192x3) off S1x2048x3.size inb)) shapeCasts_S1x2048x3_S2048x3 (ix2 q d)
      = x1 (ix3 (0 : Fin 1) (quarter k q) d) := by
  subst hoff
  refine (shapeCast_1ab_ab_apply _ shapeCasts_S1x2048x3_S2048x3 q d).trans ?_
  show x1 ((Rect.unit (s := S1x8192x3) ![0, k.val * 2048, 0] S1x2048x3.size inb).emb (ix3 (0 : Fin 1) q d)) = _
  refine congrArg x1 (funext fun a => Fin.ext ?_)
  match a with
  | ⟨0, _⟩ => rfl
  | ⟨1, _⟩ => show k.val * 2048 + 1 * q.val = k.val * 2048 + q.val; omega
  | ⟨2, _⟩ => show 0 + 1 * d.val = d.val; omega

/-- Row `r` of the tile: predicted point `r` of the block, scaled by its mask. -/
theorem rows_apply (x0 : Vec Ideal S1x512x3 .f32) (x2 : Vec Ideal S1x512x1 .f32) (r : Fin 512) (d : Fin 3) :
    k0_pay6 x0 x2 (ix2 r d) = x0 (ix3 (0 : Fin 1) r d) * x2 (ix3 (0 : Fin 1) r (0 : Fin 1)) := by
  unfold k0_pay6 k0_pay4
  refine (mulf_apply _ _ _).trans ?_
  refine congrArg₂ (· * ·) (shapeCast_1ab_ab_apply x0 shapeCasts_S1x512x3_S512x3 r d) ?_
  refine (broadcastTo_a1_ab_apply _ broadcasts_S512x1_S512x3 r d).trans ?_
  refine (shapeCast_a_a1_apply _ shapeCasts_S512_S512x1 r 0).trans ?_
  exact shapeCast_1a1_a_apply x2 shapeCasts_S1x512x1_S512 r

/-- The rows' square norms. -/
theorem rowNorm_apply (x0 : Vec Ideal S1x512x3 .f32) (x2 : Vec Ideal S1x512x1 .f32) (r : Fin 512) :
    k0_pay7 x0 x2 (ix2 r (0 : Fin 1)) = ∑ d : Fin 3, k0_pay6 x0 x2 (ix2 r d) * k0_pay6 x0 x2 (ix2 r d) := by
  unfold k0_pay7
  refine (shapeCast_a_a1_apply _ shapeCasts_S512_S512x1 r 0).trans ?_
  exact Tile.sqnorm_apply (k0_pay6 x0 x2) reduces_S512x3_S512 (.inl rfl) rfl r

/-- The body's running minimum, scaled: the payload both stores share is the four quarters folded. -/
theorem pay1_eq (x0 : Vec Ideal S1x512x3 .f32) (x1 : Vec Ideal S1x8192x3 .f32) (x2 : Vec Ideal S1x512x1 .f32) :
    k0_pay1 (k0_pay12 (k0_pay6 (View.ld x0 r0_0) (View.ld x2 r0_1)) (k0_pay7 (View.ld x0 r0_0) (View.ld x2 r0_1)) (k0_pay8 (View.ld x0 r0_0) (View.ld x2 r0_1) (View.ld x1 r0_2)) (k0_pay10 (View.ld x1 r0_3)) (k0_pay11 (View.ld x1 r0_3)) (View.ld x1 r0_4)) (k0_pay13 (k0_pay6 (View.ld x0 r0_0) (View.ld x2 r0_1)) (k0_pay7 (View.ld x0 r0_0) (View.ld x2 r0_1)) (View.ld x1 r0_5))
      = scaled (near4 (k0_pay6 (View.ld x0 r0_0) (View.ld x2 r0_1)) (k0_pay7 (View.ld x0 r0_0) (View.ld x2 r0_1))
          (shapeCast S2048x3 (View.ld x1 r0_2) shapeCasts_S1x2048x3_S2048x3) (shapeCast S2048x3 (View.ld x1 r0_3) shapeCasts_S1x2048x3_S2048x3)
          (shapeCast S2048x3 (View.ld x1 r0_4) shapeCasts_S1x2048x3_S2048x3) (shapeCast S2048x3 (View.ld x1 r0_5) shapeCasts_S1x2048x3_S2048x3)) := rfl

/-- A hundred roots of predicted point `r`'s least clamped expansion against the cloud. -/
def lossAt (x0 : Vec Ideal S1x512x3 .f32) (x1 : Vec Ideal S1x8192x3 .f32) (x2 : Vec Ideal S1x512x1 .f32) (r : Fin 512) : EReal :=
  Ideal.sqrt ((Finset.univ : Finset (Fin 8192)).fold min wInf fun j =>
    expand (fun d => x0 (ix3 (0 : Fin 1) r d) * x2 (ix3 (0 : Fin 1) r (0 : Fin 1))) (fun d => x1 (ix3 (0 : Fin 1) j d))) * wHundred

theorem pay1_apply (x0 : Vec Ideal S1x512x3 .f32) (x1 : Vec Ideal S1x8192x3 .f32) (x2 : Vec Ideal S1x512x1 .f32) (r : Fin 512) :
    k0_pay1 (k0_pay12 (k0_pay6 (View.ld x0 r0_0) (View.ld x2 r0_1)) (k0_pay7 (View.ld x0 r0_0) (View.ld x2 r0_1)) (k0_pay8 (View.ld x0 r0_0) (View.ld x2 r0_1) (View.ld x1 r0_2)) (k0_pay10 (View.ld x1 r0_3)) (k0_pay11 (View.ld x1 r0_3)) (View.ld x1 r0_4)) (k0_pay13 (k0_pay6 (View.ld x0 r0_0) (View.ld x2 r0_1)) (k0_pay7 (View.ld x0 r0_0) (View.ld x2 r0_1)) (View.ld x1 r0_5)) (ix1 r)
      = lossAt x0 x1 x2 r := by
  rw [pay1_eq, scaled_apply]
  rw [near4_apply (k0_pay6 (View.ld x0 r0_0) (View.ld x2 r0_1)) (k0_pay7 (View.ld x0 r0_0) (View.ld x2 r0_1))
    (shapeCast S2048x3 (View.ld x1 r0_2) shapeCasts_S1x2048x3_S2048x3) (shapeCast S2048x3 (View.ld x1 r0_3) shapeCasts_S1x2048x3_S2048x3)
    (shapeCast S2048x3 (View.ld x1 r0_4) shapeCasts_S1x2048x3_S2048x3) (shapeCast S2048x3 (View.ld x1 r0_5) shapeCasts_S1x2048x3_S2048x3)
    (fun j d => x1 (ix3 (0 : Fin 1) j d))
    (fun q d => quarter_apply x1 0 ![0, 0, 0] rfl inb_S1x8192x3_S1x2048x3_0_0_0 q d)
    (fun q d => quarter_apply x1 1 ![0, 2048, 0] rfl inb_S1x8192x3_S1x2048x3_0_2048_0 q d)
    (fun q d => quarter_apply x1 2 ![0, 4096, 0] rfl inb_S1x8192x3_S1x2048x3_0_4096_0 q d)
    (fun q d => quarter_apply x1 3 ![0, 6144, 0] rfl inb_S1x8192x3_S1x2048x3_0_6144_0 q d) r]
  simp only [View.ld_unit_zero (S := S1x512x3) hz3, View.ld_unit_zero (S := S1x512x1) hz3]
  rw [rowNorm_apply]
  simp only [rows_apply]
  rfl

/-- The masked loss block at `r`. -/
theorem out0_4_apply (x0 : Vec Ideal S1x512x3 .f32) (x1 : Vec Ideal S1x8192x3 .f32) (x2 x3 : Vec Ideal S1x512x1 .f32) (r : Fin 512) :
    out0_4 x0 x1 x2 x3 (ix3 (0 : Fin 1) r (0 : Fin 1)) = lossAt x0 x1 x2 r * x2 (ix3 (0 : Fin 1) r (0 : Fin 1)) := by
  unfold out0_4
  rw [View.canon_unit_zero hz3]
  unfold k0_pay2
  refine (shapeCast_a_1a1_apply _ shapeCasts_S512_S1x512x1 0 r 0).trans ?_
  refine (mulf_apply _ _ _).trans ?_
  refine congrArg₂ (· * ·) (pay1_apply x0 x1 x2 r) ?_
  unfold k0_pay4
  refine (shapeCast_1a1_a_apply _ shapeCasts_S1x512x1_S512 r).trans ?_
  rw [View.ld_unit_zero (S := S1x512x1) hz3]

/-- The confidence-weighted loss block at `r`. -/
theorem out0_5_apply (x0 : Vec Ideal S1x512x3 .f32) (x1 : Vec Ideal S1x8192x3 .f32) (x2 x3 : Vec Ideal S1x512x1 .f32) (r : Fin 512) :
    out0_5 x0 x1 x2 x3 (ix3 (0 : Fin 1) r (0 : Fin 1))
      = (lossAt x0 x1 x2 r * x3 (ix3 (0 : Fin 1) r (0 : Fin 1)) - wOne * Ideal.log (x3 (ix3 (0 : Fin 1) r (0 : Fin 1)))) * x2 (ix3 (0 : Fin 1) r (0 : Fin 1)) := by
  unfold out0_5
  rw [View.canon_unit_zero hz3]
  unfold k0_pay3
  refine (shapeCast_a_1a1_apply _ shapeCasts_S512_S1x512x1 0 r 0).trans ?_
  have e2 : k0_pay4 (View.ld x2 r0_1) (ix1 r) = x2 (ix3 (0 : Fin 1) r (0 : Fin 1)) := by
    unfold k0_pay4
    refine (shapeCast_1a1_a_apply _ shapeCasts_S1x512x1_S512 r).trans ?_
    rw [View.ld_unit_zero (S := S1x512x1) hz3]
  have e3 : k0_pay5 (View.ld x3 r0_1) (ix1 r) = x3 (ix3 (0 : Fin 1) r (0 : Fin 1)) := by
    unfold k0_pay5
    refine (shapeCast_1a1_a_apply _ shapeCasts_S1x512x1_S512 r).trans ?_
    rw [View.ld_unit_zero (S := S1x512x1) hz3]
  refine (mulf_apply _ _ _).trans ?_
  refine congrArg₂ (· * ·) ?_ e2
  refine (subf_apply _ _ _).trans ?_
  refine congrArg₂ (· - ·) ?_ ?_
  · refine (mulf_apply _ _ _).trans ?_
    exact congrArg₂ (· * ·) (pay1_apply x0 x1 x2 r) e3
  · refine (mulf_apply _ _ _).trans ?_
    refine congrArg₂ (· * ·) rfl ?_
    show Ideal.log (k0_pay5 (View.ld x3 r0_1) (ix1 r)) = _
    rw [e3]

end Cert.KernelIdeal.Body0

end
-- ==== Proof.Arr0.lean ====
/-
  The first kernel's two output arrays after all its grid points, as functions of the arrays the region finds.

  The grid is 2 × 16: point `(b, i)` takes predicted points `512·i … 512·i + 511` of cloud `b`, with their masks and
  confidences, and the whole ground-truth cloud `b`; it writes back rows `512·i …` of cloud `b` in both output arrays.
  The mask and confidence arrays the region finds are the arguments with a unit axis added. So what point `(b, i)`
  writes at row `r` is the specification's masked loss (and confidence-weighted loss) of predicted point `512·i + r`
  of cloud `b`; the 32 blocks tile the arrays, so the arrays end holding those functions everywhere.
-/
import proofs.«149853_j5085241278567_1_alg».proof.Proof.Body0
import Idealize.ShloMosaic.Lib.Pipeline.Value

set_option maxRecDepth 16384

noncomputable section

namespace Cert.KernelIdeal.Arr0

open Cert.KernelIdeal Cert.KernelIdeal.Gen Cert.KernelIdeal.Body0
open Idealize.ShloMosaic Idealize.ShloMosaic.TcCoe Idealize.ShloMosaic.ValueIdx Cert.Chamfer Idealize.SL.Sem
open Idealize.ShloMosaic.Pipeline (Dat)

/-- The masked loss as an array with a trailing unit axis. -/
def lossArr (gt pred : Pts.Idx → EReal) (mask : Per.Idx → EReal) : S2x8192x1.Idx → EReal :=
  fun y => lossMasked gt pred mask ⟨(y 0).val, (y 0).isLt⟩ ⟨(y 1).val, (y 1).isLt⟩

/-- The confidence-weighted loss as an array with a trailing unit axis. -/
def confArr (gt pred : Pts.Idx → EReal) (mask conf : Per.Idx → EReal) : S2x8192x1.Idx → EReal :=
  fun y => lossConf gt pred mask conf ⟨(y 0).val, (y 0).isLt⟩ ⟨(y 1).val, (y 1).isLt⟩

/-- An array of one number per point with a unit axis added, read at an index. -/
theorem col_apply {α : Type} (x : S2x8192.Idx → α) (B : Fin 2) (I : Fin 8192) (u : Fin 1) :
    broadcastInDim S2x8192x1 ![0, 1] bcast_S2x8192_S2x8192x1_0_1 x (ix3 B I u) = x (ix2 B I) :=
  broadcastInDim_apply _ bcast_S2x8192_S2x8192x1_0_1 x _ _ (fun a => match a with
    | ⟨0, _⟩ => by show B.val = if (2 : Nat) = 1 then 0 else B.val; rw [if_neg (by decide)]
    | ⟨1, _⟩ => by show I.val = if (8192 : Nat) = 1 then 0 else I.val; rw [if_neg (by decide)])

/-- The printed index maps, decided over the grid: the tiled windows move with the output's block, the resident cloud's
    block follows the cloud index only, and the output's block indices stay in their ranges. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_5.index t (0 : Fin 3) = win0_4.index t (0 : Fin 3) ∧ win0_5.index t (1 : Fin 3) = win0_4.index t (1 : Fin 3) ∧ win0_5.index t (2 : Fin 3) = 0
    ∧ win0_4.index t (0 : Fin 3) ≤ 1 ∧ win0_4.index t (1 : Fin 3) ≤ 15 ∧ win0_4.index t (2 : Fin 3) = 0 :=
  (by decide +kernel : ∀ t : Fin grid0.N, _)

/-- Every block of the output arrays is some point's. -/
theorem idx_onto : ∀ (q0 : Fin 2) (q1 : Fin 16), ∃ t : Fin cfg0.N, win0_4.index t = ![q0.val, q1.val, 0] :=
  (by decide +kernel : ∀ (q0 : Fin 2) (q1 : Fin 16), ∃ t : Fin grid0.N, win0_4.index t = ![q0.val, q1.val, 0])

section
variable (V : (c : Dev nD) → (b : Ref sig .tc) → Buf (Elt Ideal) ((c : Thread nD τ).loc b))

/-- The four input blocks at a point, at their literal types. -/
abbrev predBlk (c : Dev nD) (t : Fin cfg0.N) : Vec Ideal S1x512x3 .f32 := iblk0 V c 0 t
abbrev gtBlk (c : Dev nD) (t : Fin cfg0.N) : Vec Ideal S1x8192x3 .f32 := iblk0 V c 1 t
abbrev maskBlk (c : Dev nD) (t : Fin cfg0.N) : Vec Ideal S1x512x1 .f32 := iblk0 V c 2 t
abbrev confBlk (c : Dev nD) (t : Fin cfg0.N) : Vec Ideal S1x512x1 .f32 := iblk0 V c 3 t
/-- The arrays the region finds, at their literal types. -/
abbrev predArr (c : Dev nD) : S2x8192x3.Idx → EReal := V c main_arg1
abbrev gtArr (c : Dev nD) : S2x8192x3.Idx → EReal := V c main_arg0
abbrev maskArr (c : Dev nD) : S2x8192x1.Idx → EReal := V c main_v0
abbrev confArr' (c : Dev nD) : S2x8192x1.Idx → EReal := V c main_v1

theorem predBlk_apply (c : Dev nD) (t : Fin cfg0.N) (B : Fin 2) (I : Fin 8192) (r : Fin 512) (d : Fin 3)
    (hB : B.val = win0_4.index t (0 : Fin 3)) (hI : I.val = win0_4.index t (1 : Fin 3) * 512 + r.val) :
    predBlk V c t (ix3 (0 : Fin 1) r d) = predArr V c (ix3 B I d) := by
  obtain ⟨e0, e1, e2, -⟩ := idx_facts t
  show predArr V c (((cfg0.win 0).blk t).view.emb (ix3 (0 : Fin 1) r d)) = _
  refine congrArg (predArr V c) (funext fun a => Fin.ext ?_)
  match a with
  | ⟨0, _⟩ => show win0_0.index t (0 : Fin 3) * 1 + 1 * 0 = B.val; omega
  | ⟨1, _⟩ => show win0_0.index t (1 : Fin 3) * 512 + 1 * r.val = I.val; omega
  | ⟨2, _⟩ => show win0_0.index t (2 : Fin 3) * 3 + 1 * d.val = d.val; omega

theorem gtBlk_apply (c : Dev nD) (t : Fin cfg0.N) (B : Fin 2) (j : Fin 8192) (d : Fin 3)
    (hB : B.val = win0_4.index t (0 : Fin 3)) :
    gtBlk V c t (ix3 (0 : Fin 1) j d) = gtArr V c (ix3 B j d) := by
  obtain ⟨-, -, -, e0, e1, e2, -⟩ := idx_facts t
  show gtArr V c (((cfg0.win 1).blk t).view.emb (ix3 (0 : Fin 1) j d)) = _
  refine congrArg (gtArr V c) (funext fun a => Fin.ext ?_)
  match a with
  | ⟨0, _⟩ => show win0_1.index t (0 : Fin 3) * 1 + 1 * 0 = B.val; omega
  | ⟨1, _⟩ => show win0_1.index t (1 : Fin 3) * 8192 + 1 * j.val = j.val; omega
  | ⟨2, _⟩ => show win0_1.index t (2 : Fin 3) * 3 + 1 * d.val = d.val; omega

theorem maskBlk_apply (c : Dev nD) (t : Fin cfg0.N) (B : Fin 2) (I : Fin 8192) (r : Fin 512)
    (hB : B.val = win0_4.index t (0 : Fin 3)) (hI : I.val = win0_4.index t (1 : Fin 3) * 512 + r.val) :
    maskBlk V c t (ix3 (0 : Fin 1) r (0 : Fin 1)) = maskArr V c (ix3 B I (0 : Fin 1)) := by
  obtain ⟨-, -, -, -, -, -, e0, e1, e2, -⟩ := idx_facts t
  show maskArr V c (((cfg0.win 2).blk t).view.emb (ix3 (0 : Fin 1) r (0 : Fin 1))) = _
  refine congrArg (maskArr V c) (funext fun a => Fin.ext ?_)
  match a with
  | ⟨0, _⟩ => show win0_2.index t (0 : Fin 3) * 1 + 1 * 0 = B.val; omega
  | ⟨1, _⟩ => show win0_2.index t (1 : Fin 3) * 512 + 1 * r.val = I.val; omega
  | ⟨2, _⟩ => show win0_2.index t (2 : Fin 3) * 1 + 1 * 0 = 0; omega

theorem confBlk_apply (c : Dev nD) (t : Fin cfg0.N) (B : Fin 2) (I : Fin 8192) (r : Fin 512)
    (hB : B.val = win0_4.index t (0 : Fin 3)) (hI : I.val = win0_4.index t (1 : Fin 3) * 512 + r.val) :
    confBlk V c t (ix3 (0 : Fin 1) r (0 : Fin 1)) = confArr' V c (ix3 B I (0 : Fin 1)) := by
  obtain ⟨-, -, -, -, -, -, -, -, -, e0, e1, e2, -⟩ := idx_facts t
  show confArr' V c (((cfg0.win 3).blk t).view.emb (ix3 (0 : Fin 1) r (0 : Fin 1))) = _
  refine congrArg (confArr' V c) (funext fun a => Fin.ext ?_)
  match a with
  | ⟨0, _⟩ => show win0_3.index t (0 : Fin 3) * 1 + 1 * 0 = B.val; omega
  | ⟨1, _⟩ => show win0_3.index t (1 : Fin 3) * 512 + 1 * r.val = I.val; omega
  | ⟨2, _⟩ => show win0_3.index t (2 : Fin 3) * 1 + 1 * 0 = 0; omega

/-- The loss a point computes for its row `r` is the specification's loss of the predicted point the row holds. -/
theorem lossAt_blk (c : Dev nD) (t : Fin cfg0.N) (mask : Per.Idx → EReal)
    (hm : maskArr V c = broadcastInDim S2x8192x1 ![0, 1] bcast_S2x8192_S2x8192x1_0_1 mask)
    (B : Fin 2) (I : Fin 8192) (r : Fin 512)
    (hB : B.val = win0_4.index t (0 : Fin 3)) (hI : I.val = win0_4.index t (1 : Fin 3) * 512 + r.val) :
    lossAt (predBlk V c t) (gtBlk V c t) (maskBlk V c t) r = lossPred (gtArr V c) (predArr V c) mask B I := by
  have h2 : maskBlk V c t (ix3 (0 : Fin 1) r (0 : Fin 1)) = mask (ix2 B I) := by
    rw [maskBlk_apply V c t B I r hB hI, hm, col_apply]
  unfold lossAt lossPred nearGt sqd mpt gpt
  have e : (fun j : Fin 8192 => expand (fun d => predBlk V c t (ix3 (0 : Fin 1) r d) * maskBlk V c t (ix3 (0 : Fin 1) r (0 : Fin 1)))
        (fun d => gtBlk V c t (ix3 (0 : Fin 1) j d)))
      = fun j : Fin 8192 => expand (fun d => predArr V c (ix3 B I d) * mask (ix2 B I)) (fun d => gtArr V c (ix3 B j d)) :=
    funext fun j => congrArg₂ expand (funext fun d => by rw [predBlk_apply V c t B I r d hB hI, h2])
      (funext fun d => gtBlk_apply V c t B j d hB)
  rw [e]

/-- The output index a point's block coordinate `j` lands on: cloud `B`, predicted point `I`. -/
theorem emb4_coords (t : Fin cfg0.N) (j : S1x512x1.Idx) (B : Fin 2) (I : Fin 8192)
    (hB : B.val = win0_4.index t (0 : Fin 3)) (hI : I.val = win0_4.index t (1 : Fin 3) * 512 + (j 1).val) :
    (⟨(((cfg0.win 4).blk t).view.emb j 0).val, (((cfg0.win 4).blk t).view.emb j 0).isLt⟩ : Fin 2) = B
    ∧ (⟨(((cfg0.win 4).blk t).view.emb j 1).val, (((cfg0.win 4).blk t).view.emb j 1).isLt⟩ : Fin 8192) = I := by
  have h0 : (j 0).val < 1 := (j 0).isLt
  constructor
  · apply Fin.ext
    show win0_4.index t (0 : Fin 3) * 1 + 1 * (j 0).val = B.val
    omega
  · apply Fin.ext
    show win0_4.index t (1 : Fin 3) * 512 + 1 * (j 1).val = I.val
    omega

theorem emb5_coords (t : Fin cfg0.N) (j : S1x512x1.Idx) (B : Fin 2) (I : Fin 8192)
    (hB : B.val = win0_4.index t (0 : Fin 3)) (hI : I.val = win0_4.index t (1 : Fin 3) * 512 + (j 1).val) :
    (⟨(((cfg0.win 5).blk t).view.emb j 0).val, (((cfg0.win 5).blk t).view.emb j 0).isLt⟩ : Fin 2) = B
    ∧ (⟨(((cfg0.win 5).blk t).view.emb j 1).val, (((cfg0.win 5).blk t).view.emb j 1).isLt⟩ : Fin 8192) = I := by
  obtain ⟨-, -, -, -, -, -, -, -, -, -, -, -, e0, e1, -⟩ := idx_facts t
  have h0 : (j 0).val < 1 := (j 0).isLt
  constructor
  · apply Fin.ext
    show win0_5.index t (0 : Fin 3) * 1 + 1 * (j 0).val = B.val
    omega
  · apply Fin.ext
    show win0_5.index t (1 : Fin 3) * 512 + 1 * (j 1).val = I.val
    omega

/-- A block coordinate is `(0, r, 0)`. -/
theorem blkIdx_eq (j : S1x512x1.Idx) : j = ix3 (0 : Fin 1) (⟨(j 1).val, (j 1).isLt⟩ : Fin 512) (0 : Fin 1) :=
  funext fun a => Fin.ext (by
    match a with
    | ⟨0, _⟩ => have h : (j 0).val < 1 := (j 0).isLt; show (j 0).val = 0; omega
    | ⟨1, _⟩ => rfl
    | ⟨2, _⟩ => have h : (j 2).val < 1 := (j 2).isLt; show (j 2).val = 0; omega)

/-- WHAT POINT `t` WRITES BACK to the masked-loss array is its block of the specification's array. -/
theorem flushed4_eq (c : Dev nD) (t : Fin cfg0.N) (mask : Per.Idx → EReal)
    (hm : maskArr V c = broadcastInDim S2x8192x1 ![0, 1] bcast_S2x8192_S2x8192x1_0_1 mask) :
    (dat0 V c).flushed 4 t = ((cfg0.win 4).blk t).view.read (Elt Ideal) (lossArr (gtArr V c) (predArr V c) mask) := by
  show (cfg0.win 4).cut (grid0.coords t) ((dat0 V c).after 4 t) = _
  rw [after0_4]
  obtain ⟨-, -, -, -, -, -, -, -, -, -, -, -, -, -, -, b0, b1, -⟩ := idx_facts t
  funext j
  have hj1 : (j 1).val < 512 := (j 1).isLt
  let r : Fin 512 := ⟨(j 1).val, hj1⟩
  let B : Fin 2 := ⟨win0_4.index t (0 : Fin 3), by omega⟩
  let I : Fin 8192 := ⟨win0_4.index t (1 : Fin 3) * 512 + (j 1).val, by omega⟩
  obtain ⟨eB, eI⟩ := emb4_coords t j B I rfl rfl
  show out0_4 (predBlk V c t) (gtBlk V c t) (maskBlk V c t) (confBlk V c t) j
    = lossMasked (gtArr V c) (predArr V c) mask ⟨(((cfg0.win 4).blk t).view.emb j 0).val, (((cfg0.win 4).blk t).view.emb j 0).isLt⟩
        ⟨(((cfg0.win 4).blk t).view.emb j 1).val, (((cfg0.win 4).blk t).view.emb j 1).isLt⟩
  rw [eB, eI]
  refine (congrArg (out0_4 (predBlk V c t) (gtBlk V c t) (maskBlk V c t) (confBlk V c t)) (blkIdx_eq j)).trans ?_
  refine (out0_4_apply (predBlk V c t) (gtBlk V c t) (maskBlk V c t) (confBlk V c t) r).trans ?_
  unfold lossMasked
  rw [lossAt_blk V c t mask hm B I r rfl rfl, maskBlk_apply V c t B I r rfl rfl, hm, col_apply]

/-- WHAT POINT `t` WRITES BACK to the confidence-weighted array is its block of the specification's array. -/
theorem flushed5_eq (c : Dev nD) (t : Fin cfg0.N) (mask conf : Per.Idx → EReal)
    (hm : maskArr V c = broadcastInDim S2x8192x1 ![0, 1] bcast_S2x8192_S2x8192x1_0_1 mask)
    (hc : confArr' V c = broadcastInDim S2x8192x1 ![0, 1] bcast_S2x8192_S2x8192x1_0_1 conf) :
    (dat0 V c).flushed 5 t = ((cfg0.win 5).blk t).view.read (Elt Ideal) (confArr (gtArr V c) (predArr V c) mask conf) := by
  show (cfg0.win 5).cut (grid0.coords t) ((dat0 V c).after 5 t) = _
  rw [after0_5]
  obtain ⟨-, -, -, -, -, -, -, -, -, -, -, -, -, -, -, b0, b1, -⟩ := idx_facts t
  funext j
  have hj1 : (j 1).val < 512 := (j 1).isLt
  let r : Fin 512 := ⟨(j 1).val, hj1⟩
  let B : Fin 2 := ⟨win0_4.index t (0 : Fin 3), by omega⟩
  let I : Fin 8192 := ⟨win0_4.index t (1 : Fin 3) * 512 + (j 1).val, by omega⟩
  obtain ⟨eB, eI⟩ := emb5_coords t j B I rfl rfl
  show out0_5 (predBlk V c t) (gtBlk V c t) (maskBlk V c t) (confBlk V c t) j
    = lossConf (gtArr V c) (predArr V c) mask conf ⟨(((cfg0.win 5).blk t).view.emb j 0).val, (((cfg0.win 5).blk t).view.emb j 0).isLt⟩
        ⟨(((cfg0.win 5).blk t).view.emb j 1).val, (((cfg0.win 5).blk t).view.emb j 1).isLt⟩
  rw [eB, eI]
  refine (congrArg (out0_5 (predBlk V c t) (gtBlk V c t) (maskBlk V c t) (confBlk V c t)) (blkIdx_eq j)).trans ?_
  refine (out0_5_apply (predBlk V c t) (gtBlk V c t) (maskBlk V c t) (confBlk V c t) r).trans ?_
  unfold lossConf
  rw [lossAt_blk V c t mask hm B I r rfl rfl, maskBlk_apply V c t B I r rfl rfl, confBlk_apply V c t B I r rfl rfl, hm, hc,
    col_apply, col_apply]

/-- An index of an output array is in point `t`'s block iff each coordinate is in the block's range on its axis. -/
theorem mem_blk4 (t : Fin cfg0.N) (i : S2x8192x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_v2_0).slice (win0_4.rect t)).set ↔ _
  rw [View.set_slice_whole, Rect.mem_set_unit]
  exact Iff.rfl

theorem mem_blk5 (t : Fin cfg0.N) (i : S2x8192x1.Idx) :
    i ∈ ((cfg0.win 5).blk t).view.set ↔ ∀ a : Fin 3, win0_5.index t a * S1x512x1.size a ≤ (i a).val ∧ (i a).val < win0_5.index t a * S1x512x1.size a + S1x512x1.size a := by
  show i ∈ ((View.whole main_v2_1).slice (win0_5.rect t)).set ↔ _
  rw [View.set_slice_whole, Rect.mem_set_unit]
  exact Iff.rfl

/-- The 32 blocks tile each output array: the point that covers row `i` of cloud `b` is `(b, i / 512)`. -/
theorem cover4 (i : S2x8192x1.Idx) : ∃ t : Fin cfg0.N, (cfg0.win 4).flush t = true ∧ i ∈ ((cfg0.win 4).blk t).view.set := by
  have h0 : (i 0).val < 2 := (i 0).isLt
  have h1 : (i 1).val < 8192 := (i 1).isLt
  have h2 : (i 2).val < 1 := (i 2).isLt
  obtain ⟨t, ht⟩ := idx_onto ⟨(i 0).val, h0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1 ≤ (i 2).val ∧ (i 2).val < win0_4.index t (2 : Fin 3) * 1 + 1; omega

theorem cover5 (i : S2x8192x1.Idx) : ∃ t : Fin cfg0.N, (cfg0.win 5).flush t = true ∧ i ∈ ((cfg0.win 5).blk t).view.set := by
  have h0 : (i 0).val < 2 := (i 0).isLt
  have h1 : (i 1).val < 8192 := (i 1).isLt
  have h2 : (i 2).val < 1 := (i 2).isLt
  obtain ⟨t, ht⟩ := idx_onto ⟨(i 0).val, h0⟩ ⟨(i 1).val / 512, by omega⟩
  obtain ⟨-, -, -, -, -, -, -, -, -, -, -, -, e0, e1, e2, -⟩ := idx_facts t
  have q0 : win0_4.index t (0 : Fin 3) = (i 0).val := congrFun ht 0
  have q1 : win0_4.index t (1 : Fin 3) = (i 1).val / 512 := congrFun ht 1
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1 ≤ (i 2).val ∧ (i 2).val < win0_5.index t (2 : Fin 3) * 1 + 1; omega

/-- THE ARRAYS after the region: the specification's masked loss and confidence-weighted loss. -/
theorem final4 (c : Dev nD) (mask : Per.Idx → EReal)
    (hm : maskArr V c = broadcastInDim S2x8192x1 ![0, 1] bcast_S2x8192_S2x8192x1_0_1 mask) :
    (dat0 V c).arrAt 4 cfg0.N = lossArr (gtArr V c) (predArr V c) mask :=
  (dat0 V c).arrAt_eq_of_cover 4 (lossArr (gtArr V c) (predArr V c) mask) (fun t _ => flushed4_eq V c t mask hm) cover4

theorem final5 (c : Dev nD) (mask conf : Per.Idx → EReal)
    (hm : maskArr V c = broadcastInDim S2x8192x1 ![0, 1] bcast_S2x8192_S2x8192x1_0_1 mask)
    (hc : confArr' V c = broadcastInDim S2x8192x1 ![0, 1] bcast_S2x8192_S2x8192x1_0_1 conf) :
    (dat0 V c).arrAt 5 cfg0.N = confArr (gtArr V c) (predArr V c) mask conf :=
  (dat0 V c).arrAt_eq_of_cover 5 (confArr (gtArr V c) (predArr V c) mask conf) (fun t _ => flushed5_eq V c t mask conf hm hc) cover5

end

end Cert.KernelIdeal.Arr0

end
-- ==== Proof.Body1.lean ====
/-
  The second kernel (ground-truth points against the resident predicted cloud and its masks), one grid point, read at
  an index.

  The point's blocks are 512 ground-truth points `x0`, the whole predicted cloud `x1` of 8192 points and the whole
  column `x2` of their masks. Row `r` of the tile is ground-truth point `r`, and the rows' square norms are the sums of
  their squared coordinates. Quarter `k` of the columns is read through two rectangles that both start at row `2048·k`,
  one in the cloud and one in the mask column: column `q` of the quarter is predicted point `2048·k + q` with every
  coordinate multiplied by that point's mask. So the tile's entry at (r, i) is the clamped expansion with the
  ground-truth point in the first place and the masked predicted point in the second; by the symmetry of the expansion
  it is the clamped expansion of the masked predicted point `i` against ground-truth point `r`, as the specification
  writes it. The running minimum at `r` is therefore the least of these over all 8192 predicted points, and the stored
  block holds, at `r`, a hundred roots of it.
-/
import proofs.«149853_j5085241278567_1_alg».proof.Proof.Body

set_option maxRecDepth 16384

noncomputable section

namespace Cert.KernelIdeal.Body1

open Cert.KernelIdeal Cert.KernelIdeal.Gen Cert.KernelIdeal.Body
open Idealize.ShloMosaic Idealize.ShloMosaic.ValueIdx Cert.Chamfer Cert.Lib.Columns

/-- The three zero offsets, however spelt, are the zero offsets. -/
theorem hz3 : (![0, 0, 0] : Fin 3 → Nat) = fun _ => 0 :=
  funext fun a => by match a with | ⟨0, _⟩ => rfl | ⟨1, _⟩ => rfl | ⟨2, _⟩ => rfl

/-! ## The columns: a chunk of predicted points, each scaled by its mask -/

/-- 2048 points with their 2048 masks: the points with the unit axis cast away, times the masks laid out as a column
    and spread across the three coordinates. -/
def mchunk (v : Vec Ideal S1x2048x3 .f32) (m : Vec Ideal S1x2048x1 .f32) : FVec Ideal S2048x3 .f32 :=
  mulf (shapeCast S2048x3 v shapeCasts_S1x2048x3_S2048x3)
    (broadcastTo S2048x3 (shapeCast S2048x1 (shapeCast S2048 m shapeCasts_S1x2048x1_S2048) shapeCasts_S2048_S2048x1)
      broadcasts_S2048x1_S2048x3)

/-- Quarter `k` of the masked cloud: through the two rectangles of 2048 rows from row `2048·k` the chunk holds, at
    `(q, d)`, coordinate `d` of predicted point `2048·k + q` times that point's mask. -/
theorem mquarter_apply (x1 : Vec Ideal S1x8192x3 .f32) (x2 : Vec Ideal S1x8192x1 .f32) (k : Fin 4)
    (off : Fin 3 → Nat) (hoff : off = ![0, k.val * 2048, 0]) (inb : ∀ a, off a + S1x2048x3.size a ≤ S1x8192x3.size a)
    (off' : Fin 3 → Nat) (hoff' : off' = ![0, k.val * 2048, 0]) (inb' : ∀ a, off' a + S1x2048x1.size a ≤ S1x8192x1.size a)
    (q : Fin 2048) (d : Fin 3) :
    mchunk (View.ld x1 (Rect.unit (s := S1x8192x3) off S1x2048x3.size inb))
        (View.ld x2 (Rect.unit (s := S1x8192x1) off' S1x2048x1.size inb')) (ix2 q d)
      = x1 (ix3 (0 : Fin 1) (quarter k q) d) * x2 (ix3 (0 : Fin 1) (quarter k q) (0 : Fin 1)) := by
  subst hoff hoff'
  unfold mchunk
  refine (mulf_apply _ _ _).trans (congrArg₂ (· * ·) ?_ ?_)
  · refine (shapeCast_1ab_ab_apply _ shapeCasts_S1x2048x3_S2048x3 q d).trans ?_
    show x1 ((Rect.unit (s := S1x8192x3) ![0, k.val * 2048, 0] S1x2048x3.size inb).emb (ix3 (0 : Fin 1) q d)) = _
    refine congrArg x1 (funext fun a => Fin.ext ?_)
    match a with
    | ⟨0, _⟩ => rfl
    | ⟨1, _⟩ => show k.val * 2048 + 1 * q.val = k.val * 2048 + q.val; omega
    | ⟨2, _⟩ => show 0 + 1 * d.val = d.val; omega
  · refine (broadcastTo_a1_ab_apply _ broadcasts_S2048x1_S2048x3 q d).trans ?_
    refine (shapeCast_a_a1_apply _ shapeCasts_S2048_S2048x1 q 0).trans ?_
    refine (shapeCast_1a1_a_apply _ shapeCasts_S1x2048x1_S2048 q).trans ?_
    show x2 ((Rect.unit (s := S1x8192x1) ![0, k.val * 2048, 0] S1x2048x1.size inb').emb (ix3 (0 : Fin 1) q (0 : Fin 1))) = _
    refine congrArg x2 (funext fun a => Fin.ext ?_)
    match a with
    | ⟨0, _⟩ => rfl
    | ⟨1, _⟩ => show k.val * 2048 + 1 * q.val = k.val * 2048 + q.val; omega
    | ⟨2, _⟩ => rfl

/-! ## The rows: the block's ground-truth points -/

/-- Row `r` of the tile: ground-truth point `r` of the block. -/
theorem rows_apply (x0 : Vec Ideal S1x512x3 .f32) (r : Fin 512) (d : Fin 3) :
    k1_pay2 x0 (ix2 r d) = x0 (ix3 (0 : Fin 1) r d) :=
  shapeCast_1ab_ab_apply x0 shapeCasts_S1x512x3_S512x3 r d

/-- The rows' square norms. -/
theorem rowNorm_apply (x0 : Vec Ideal S1x512x3 .f32) (r : Fin 512) :
    k1_pay3 x0 (ix2 r (0 : Fin 1)) = ∑ d : Fin 3, k1_pay2 x0 (ix2 r d) * k1_pay2 x0 (ix2 r d) := by
  unfold k1_pay3
  refine (shapeCast_a_a1_apply _ shapeCasts_S512_S512x1 r 0).trans ?_
  exact Tile.sqnorm_apply (k1_pay2 x0) reduces_S512x3_S512 (.inl rfl) rfl r

/-! ## The stored block -/

/-- The stored payload is the four quarters' minima folded into the running minimum, a hundred roots of it, laid out
    as the block. -/
theorem pay1_eq (x0 : Vec Ideal S1x512x3 .f32) (x1 : Vec Ideal S1x8192x3 .f32) (x2 : Vec Ideal S1x8192x1 .f32) :
    k1_pay1 (k1_pay2 (View.ld x0 r1_0)) (k1_pay3 (View.ld x0 r1_0)) (k1_pay7 (k1_pay2 (View.ld x0 r1_0)) (k1_pay3 (View.ld x0 r1_0)) (k1_pay4 (View.ld x0 r1_0) (View.ld x1 r1_1) (View.ld x2 r1_2)) (k1_pay5 (View.ld x1 r1_3) (View.ld x2 r1_4)) (k1_pay6 (View.ld x1 r1_3) (View.ld x2 r1_4)) (View.ld x1 r1_5) (View.ld x2 r1_6)) (k1_pay8 (View.ld x1 r1_7)) (View.ld x2 r1_8)
      = shapeCast S1x512x1 (scaled (near4 (k1_pay2 (View.ld x0 r1_0)) (k1_pay3 (View.ld x0 r1_0))
          (mchunk (View.ld x1 r1_1) (View.ld x2 r1_2)) (mchunk (View.ld x1 r1_3) (View.ld x2 r1_4))
          (mchunk (View.ld x1 r1_5) (View.ld x2 r1_6)) (mchunk (View.ld x1 r1_7) (View.ld x2 r1_8)))) shapeCasts_S512_S1x512x1 := rfl

/-- The output block at `r`: a hundred roots of the least clamped expansion of a masked predicted point against
    ground-truth point `r`. -/
theorem out1_3_apply (x0 : Vec Ideal S1x512x3 .f32) (x1 : Vec Ideal S1x8192x3 .f32) (x2 : Vec Ideal S1x8192x1 .f32) (r : Fin 512) :
    out1_3 x0 x1 x2 (ix3 (0 : Fin 1) r (0 : Fin 1))
      = Ideal.sqrt ((Finset.univ : Finset (Fin 8192)).fold min wInf fun i =>
          expand (fun d => x1 (ix3 (0 : Fin 1) i d) * x2 (ix3 (0 : Fin 1) i (0 : Fin 1))) (fun d => x0 (ix3 (0 : Fin 1) r d))) * wHundred := by
  unfold out1_3
  rw [View.canon_unit_zero hz3]
  refine (congrFun (pay1_eq x0 x1 x2) (ix3 (0 : Fin 1) r (0 : Fin 1))).trans ?_
  refine (shapeCast_a_1a1_apply _ shapeCasts_S512_S1x512x1 0 r 0).trans ?_
  refine (scaled_apply _ r).trans ?_
  rw [near4_apply (k1_pay2 (View.ld x0 r1_0)) (k1_pay3 (View.ld x0 r1_0))
    (mchunk (View.ld x1 r1_1) (View.ld x2 r1_2)) (mchunk (View.ld x1 r1_3) (View.ld x2 r1_4))
          (mchunk (View.ld x1 r1_5) (View.ld x2 r1_6)) (mchunk (View.ld x1 r1_7) (View.ld x2 r1_8))
    (fun i d => x1 (ix3 (0 : Fin 1) i d) * x2 (ix3 (0 : Fin 1) i (0 : Fin 1)))
    (fun q d => mquarter_apply x1 x2 0 ![0, 0, 0] rfl inb_S1x8192x3_S1x2048x3_0_0_0 ![0, 0, 0] rfl inb_S1x8192x1_S1x2048x1_0_0_0 q d)
    (fun q d => mquarter_apply x1 x2 1 ![0, 2048, 0] rfl inb_S1x8192x3_S1x2048x3_0_2048_0 ![0, 2048, 0] rfl inb_S1x8192x1_S1x2048x1_0_2048_0 q d)
    (fun q d => mquarter_apply x1 x2 2 ![0, 4096, 0] rfl inb_S1x8192x3_S1x2048x3_0_4096_0 ![0, 4096, 0] rfl inb_S1x8192x1_S1x2048x1_0_4096_0 q d)
    (fun q d => mquarter_apply x1 x2 3 ![0, 6144, 0] rfl inb_S1x8192x3_S1x2048x3_0_6144_0 ![0, 6144, 0] rfl inb_S1x8192x1_S1x2048x1_0_6144_0 q d) r]
  simp only [View.ld_unit_zero (S := S1x512x3) hz3]
  rw [rowNorm_apply]
  simp only [rows_apply]
  refine congrArg (fun f : Fin 8192 → EReal => Ideal.sqrt ((Finset.univ : Finset (Fin 8192)).fold min wInf f) * wHundred)
    (funext fun i => ?_)
  exact expand_symm (fun d => x1 (ix3 (0 : Fin 1) i d) * x2 (ix3 (0 : Fin 1) i (0 : Fin 1))) (fun d => x0 (ix3 (0 : Fin 1) r d))

end Cert.KernelIdeal.Body1

end
-- ==== Proof.Arr1.lean ====
/-
  The second kernel's output array after all its grid points, as a function of the arrays the region finds.

  The grid is 2 × 16: point `(b, i)` takes ground-truth points `512·i … 512·i + 511` of cloud `b` as its rows, and
  the whole predicted cloud `b` together with the whole mask column of cloud `b`; it writes back rows `512·i …` of
  cloud `b` of the output array. The mask array the region finds is the argument with a unit axis added. What point
  `(b, i)` writes at row `r` is a hundred roots of the least clamped expansion of a masked predicted point of cloud `b`
  against ground-truth point `512·i + r` of cloud `b`: the specification's loss of that ground-truth point. The 32
  blocks tile the array, so the array ends holding that function everywhere.
-/
import proofs.«149853_j5085241278567_1_alg».proof.Proof.Body1
import Idealize.ShloMosaic.Lib.Pipeline.Value

set_option maxRecDepth 16384

noncomputable section

namespace Cert.KernelIdeal.Arr1

open Cert.KernelIdeal Cert.KernelIdeal.Gen Cert.KernelIdeal.Body1
open Idealize.ShloMosaic Idealize.ShloMosaic.TcCoe Idealize.ShloMosaic.ValueIdx Cert.Chamfer Idealize.SL.Sem
open Idealize.ShloMosaic.Pipeline (Dat)

/-- The ground-truth side's loss as an array with a trailing unit axis. -/
def gtLossArr (gt pred : Cert.Chamfer.Pts.Idx → EReal) (mask : Cert.Chamfer.Per.Idx → EReal) : S2x8192x1.Idx → EReal :=
  fun y => Cert.Chamfer.lossGt gt pred mask ⟨(y 0).val, (y 0).isLt⟩ ⟨(y 1).val, (y 1).isLt⟩

/-- One number per point with a unit axis added, read at an index: the number of that point. -/
theorem maskCol_apply {α : Type} (x : S2x8192.Idx → α) (B : Fin 2) (I : Fin 8192) (u : Fin 1) :
    broadcastInDim S2x8192x1 ![0, 1] bcast_S2x8192_S2x8192x1_0_1 x (ix3 B I u) = x (ix2 B I) :=
  broadcastInDim_apply _ bcast_S2x8192_S2x8192x1_0_1 x _ _ (fun a => match a with
    | ⟨0, _⟩ => by show B.val = if (2 : Nat) = 1 then 0 else B.val; rw [if_neg (by decide)]
    | ⟨1, _⟩ => by show I.val = if (8192 : Nat) = 1 then 0 else I.val; rw [if_neg (by decide)])

/-- The printed index maps, decided over the grid: the ground-truth window moves with the output's block, the resident
    predicted cloud's and mask column's blocks follow the cloud index only, and the output's block indices stay in
    their ranges. -/
theorem idx_facts : ∀ t : Fin cfg1.N,
    win1_0.index t (0 : Fin 3) = win1_3.index t (0 : Fin 3) ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 1 ∧ win1_3.index t (1 : Fin 3) ≤ 15 ∧ win1_3.index t (2 : Fin 3) = 0 :=
  (by decide +kernel : ∀ t : Fin grid1.N, _)

/-- Every block of the output array is some point's. -/
theorem idx_onto : ∀ (q0 : Fin 2) (q1 : Fin 16), ∃ t : Fin cfg1.N, win1_3.index t = ![q0.val, q1.val, 0] :=
  (by decide +kernel : ∀ (q0 : Fin 2) (q1 : Fin 16), ∃ t : Fin grid1.N, win1_3.index t = ![q0.val, q1.val, 0])

section
variable (V : (c : Dev nD) → (b : Ref sig .tc) → Buf (Elt Ideal) ((c : Thread nD τ).loc b))

/-- The three input blocks at a point, at their literal types. -/
abbrev gtBlk (c : Dev nD) (t : Fin cfg1.N) : Vec Ideal S1x512x3 .f32 := iblk1 V c 0 t
abbrev predBlk (c : Dev nD) (t : Fin cfg1.N) : Vec Ideal S1x8192x3 .f32 := iblk1 V c 1 t
abbrev maskBlk (c : Dev nD) (t : Fin cfg1.N) : Vec Ideal S1x8192x1 .f32 := iblk1 V c 2 t
/-- The arrays the region finds, at their literal types. -/
abbrev gtArr (c : Dev nD) : S2x8192x3.Idx → EReal := V c main_arg0
abbrev predArr (c : Dev nD) : S2x8192x3.Idx → EReal := V c main_arg1
abbrev maskArr (c : Dev nD) : S2x8192x1.Idx → EReal := V c main_v0

/-- Row `r` of the point's ground-truth block is ground-truth point `512·i + r` of its cloud. -/
theorem gtBlk_apply (c : Dev nD) (t : Fin cfg1.N) (B : Fin 2) (J : Fin 8192) (r : Fin 512) (d : Fin 3)
    (hB : B.val = win1_3.index t (0 : Fin 3)) (hJ : J.val = win1_3.index t (1 : Fin 3) * 512 + r.val) :
    gtBlk V c t (ix3 (0 : Fin 1) r d) = gtArr V c (ix3 B J d) := by
  obtain ⟨e0, e1, e2, -⟩ := idx_facts t
  show gtArr V c (((cfg1.win 0).blk t).view.emb (ix3 (0 : Fin 1) r d)) = _
  refine congrArg (gtArr V c) (funext fun a => Fin.ext ?_)
  match a with
  | ⟨0, _⟩ => show win1_0.index t (0 : Fin 3) * 1 + 1 * 0 = B.val; omega
  | ⟨1, _⟩ => show win1_0.index t (1 : Fin 3) * 512 + 1 * r.val = J.val; omega
  | ⟨2, _⟩ => show win1_0.index t (2 : Fin 3) * 3 + 1 * d.val = d.val; omega

/-- The point's predicted block is the whole predicted cloud of its cloud index. -/
theorem predBlk_apply (c : Dev nD) (t : Fin cfg1.N) (B : Fin 2) (i : Fin 8192) (d : Fin 3)
    (hB : B.val = win1_3.index t (0 : Fin 3)) :
    predBlk V c t (ix3 (0 : Fin 1) i d) = predArr V c (ix3 B i d) := by
  obtain ⟨-, -, -, e0, e1, e2, -⟩ := idx_facts t
  show predArr V c (((cfg1.win 1).blk t).view.emb (ix3 (0 : Fin 1) i d)) = _
  refine congrArg (predArr V c) (funext fun a => Fin.ext ?_)
  match a with
  | ⟨0, _⟩ => show win1_1.index t (0 : Fin 3) * 1 + 1 * 0 = B.val; omega
  | ⟨1, _⟩ => show win1_1.index t (1 : Fin 3) * 8192 + 1 * i.val = i.val; omega
  | ⟨2, _⟩ => show win1_1.index t (2 : Fin 3) * 3 + 1 * d.val = d.val; omega

/-- The point's mask block is the whole mask column of its cloud index. -/
theorem maskBlk_apply (c : Dev nD) (t : Fin cfg1.N) (B : Fin 2) (i : Fin 8192)
    (hB : B.val = win1_3.index t (0 : Fin 3)) :
    maskBlk V c t (ix3 (0 : Fin 1) i (0 : Fin 1)) = maskArr V c (ix3 B i (0 : Fin 1)) := by
  obtain ⟨-, -, -, -, -, -, e0, e1, e2, -⟩ := idx_facts t
  show maskArr V c (((cfg1.win 2).blk t).view.emb (ix3 (0 : Fin 1) i (0 : Fin 1))) = _
  refine congrArg (maskArr V c) (funext fun a => Fin.ext ?_)
  match a with
  | ⟨0, _⟩ => show win1_2.index t (0 : Fin 3) * 1 + 1 * 0 = B.val; omega
  | ⟨1, _⟩ => show win1_2.index t (1 : Fin 3) * 8192 + 1 * i.val = i.val; omega
  | ⟨2, _⟩ => show win1_2.index t (2 : Fin 3) * 1 + 1 * 0 = 0; omega

/-- What a point computes for its row `r` is the specification's loss of the ground-truth point the row holds. -/
theorem loss_blk (c : Dev nD) (t : Fin cfg1.N) (mask : Per.Idx → EReal)
    (hm : maskArr V c = broadcastInDim S2x8192x1 ![0, 1] bcast_S2x8192_S2x8192x1_0_1 mask)
    (B : Fin 2) (J : Fin 8192) (r : Fin 512)
    (hB : B.val = win1_3.index t (0 : Fin 3)) (hJ : J.val = win1_3.index t (1 : Fin 3) * 512 + r.val) :
    Ideal.sqrt ((Finset.univ : Finset (Fin 8192)).fold min wInf fun i =>
        expand (fun d => predBlk V c t (ix3 (0 : Fin 1) i d) * maskBlk V c t (ix3 (0 : Fin 1) i (0 : Fin 1)))
          (fun d => gtBlk V c t (ix3 (0 : Fin 1) r d))) * wHundred
      = lossGt (gtArr V c) (predArr V c) mask B J := by
  have h2 : ∀ i : Fin 8192, maskBlk V c t (ix3 (0 : Fin 1) i (0 : Fin 1)) = mask (ix2 B i) := fun i => by
    rw [maskBlk_apply V c t B i hB, hm, maskCol_apply]
  unfold lossGt nearPred sqd mpt gpt
  have e : (fun i : Fin 8192 => expand (fun d => predBlk V c t (ix3 (0 : Fin 1) i d) * maskBlk V c t (ix3 (0 : Fin 1) i (0 : Fin 1)))
        (fun d => gtBlk V c t (ix3 (0 : Fin 1) r d)))
      = fun i : Fin 8192 => expand (fun d => predArr V c (ix3 B i d) * mask (ix2 B i)) (fun d => gtArr V c (ix3 B J d)) :=
    funext fun i => congrArg₂ expand (funext fun d => by rw [predBlk_apply V c t B i d hB, h2 i])
      (funext fun d => gtBlk_apply V c t B J r d hB hJ)
  rw [e]

/-- The output index a point's block coordinate `j` lands on: cloud `B`, ground-truth point `J`. -/
theorem emb3_coords (t : Fin cfg1.N) (j : S1x512x1.Idx) (B : Fin 2) (J : Fin 8192)
    (hB : B.val = win1_3.index t (0 : Fin 3)) (hJ : J.val = win1_3.index t (1 : Fin 3) * 512 + (j 1).val) :
    (⟨(((cfg1.win 3).blk t).view.emb j 0).val, (((cfg1.win 3).blk t).view.emb j 0).isLt⟩ : Fin 2) = B
    ∧ (⟨(((cfg1.win 3).blk t).view.emb j 1).val, (((cfg1.win 3).blk t).view.emb j 1).isLt⟩ : Fin 8192) = J := by
  have h0 : (j 0).val < 1 := (j 0).isLt
  constructor
  · apply Fin.ext
    show win1_3.index t (0 : Fin 3) * 1 + 1 * (j 0).val = B.val
    omega
  · apply Fin.ext
    show win1_3.index t (1 : Fin 3) * 512 + 1 * (j 1).val = J.val
    omega

/-- A block coordinate is `(0, r, 0)`. -/
theorem blkIdx_eq (j : S1x512x1.Idx) : j = ix3 (0 : Fin 1) (⟨(j 1).val, (j 1).isLt⟩ : Fin 512) (0 : Fin 1) :=
  funext fun a => Fin.ext (by
    match a with
    | ⟨0, _⟩ => have h : (j 0).val < 1 := (j 0).isLt; show (j 0).val = 0; omega
    | ⟨1, _⟩ => rfl
    | ⟨2, _⟩ => have h : (j 2).val < 1 := (j 2).isLt; show (j 2).val = 0; omega)

/-- WHAT POINT `t` WRITES BACK to the output array is its block of the specification's array. -/
theorem flushed3_eq (c : Dev nD) (t : Fin cfg1.N) (mask : Per.Idx → EReal)
    (hm : maskArr V c = broadcastInDim S2x8192x1 ![0, 1] bcast_S2x8192_S2x8192x1_0_1 mask) :
    (dat1 V c).flushed 3 t = ((cfg1.win 3).blk t).view.read (Elt Ideal) (gtLossArr (gtArr V c) (predArr V c) mask) := by
  show (cfg1.win 3).cut (grid1.coords t) ((dat1 V c).after 3 t) = _
  rw [after1_3]
  obtain ⟨-, -, -, -, -, -, -, -, -, b0, b1, -⟩ := idx_facts t
  funext j
  have hj1 : (j 1).val < 512 := (j 1).isLt
  let r : Fin 512 := ⟨(j 1).val, hj1⟩
  let B : Fin 2 := ⟨win1_3.index t (0 : Fin 3), by omega⟩
  let J : Fin 8192 := ⟨win1_3.index t (1 : Fin 3) * 512 + (j 1).val, by omega⟩
  obtain ⟨eB, eJ⟩ := emb3_coords t j B J rfl rfl
  show out1_3 (gtBlk V c t) (predBlk V c t) (maskBlk V c t) j
    = lossGt (gtArr V c) (predArr V c) mask ⟨(((cfg1.win 3).blk t).view.emb j 0).val, (((cfg1.win 3).blk t).view.emb j 0).isLt⟩
        ⟨(((cfg1.win 3).blk t).view.emb j 1).val, (((cfg1.win 3).blk t).view.emb j 1).isLt⟩
  rw [eB, eJ]
  refine (congrArg (out1_3 (gtBlk V c t) (predBlk V c t) (maskBlk V c t)) (blkIdx_eq j)).trans ?_
  refine (out1_3_apply (gtBlk V c t) (predBlk V c t) (maskBlk V c t) r).trans ?_
  exact loss_blk V c t mask hm B J r rfl rfl

/-- An index of the output array is in point `t`'s block iff each coordinate is in the block's range on its axis. -/
theorem mem_blk3 (t : Fin cfg1.N) (i : S2x8192x1.Idx) :
    i ∈ ((cfg1.win 3).blk t).view.set ↔ ∀ a : Fin 3, win1_3.index t a * S1x512x1.size a ≤ (i a).val ∧ (i a).val < win1_3.index t a * S1x512x1.size a + S1x512x1.size a := by
  show i ∈ ((View.whole main_v3).slice (win1_3.rect t)).set ↔ _
  rw [View.set_slice_whole, Rect.mem_set_unit]
  exact Iff.rfl

/-- The 32 blocks tile the output array: the point that covers row `i` of cloud `b` is `(b, i / 512)`. -/
theorem cover3 (i : S2x8192x1.Idx) : ∃ t : Fin cfg1.N, (cfg1.win 3).flush t = true ∧ i ∈ ((cfg1.win 3).blk t).view.set := by
  have h0 : (i 0).val < 2 := (i 0).isLt
  have h1 : (i 1).val < 8192 := (i 1).isLt
  have h2 : (i 2).val < 1 := (i 2).isLt
  obtain ⟨t, ht⟩ := idx_onto ⟨(i 0).val, h0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1 ≤ (i 2).val ∧ (i 2).val < win1_3.index t (2 : Fin 3) * 1 + 1; omega

end

/-- THE ARRAY after the region: the specification's loss of every ground-truth point. -/
theorem final3 (V : (c : Dev nD) → (b : Ref sig .tc) → Buf (Elt Ideal) ((c : Thread nD τ).loc b)) (c : Dev nD) (mask : Cert.Chamfer.Per.Idx → EReal)
    (hm : (V c main_v0 : S2x8192x1.Idx → EReal) = broadcastInDim S2x8192x1 ![0, 1] bcast_S2x8192_S2x8192x1_0_1 mask) :
    (dat1 V c).arrAt 3 cfg1.N = gtLossArr (V c main_arg0 : S2x8192x3.Idx → EReal) (V c main_arg1 : S2x8192x3.Idx → EReal) mask :=
  (dat1 V c).arrAt_eq_of_cover 3 (gtLossArr (gtArr V c) (predArr V c) mask) (fun t _ => flushed3_eq V c t mask hm) cover3

end Cert.KernelIdeal.Arr1

end
-- ==== Proof.Results.lean ====
/-
  The three results of the program as functions of its four arguments.

  The run's last boundary holds, at each result buffer, the closing reshape (the trailing unit axis dropped) of an
  output array of one of the two kernel regions; no later stretch touches those arrays. The first region finds the two
  clouds as launched and the mask and the confidence with a unit axis added by the opening stretch; the second region
  finds the clouds and the mask column unchanged, because the first region only reads them. So the three results are
  the specification's confidence-weighted loss, masked loss and ground-truth-side loss of the arguments, each with its
  unit axis dropped.
-/
import proofs.«149853_j5085241278567_1_alg».proof.Proof.Arr0
import proofs.«149853_j5085241278567_1_alg».proof.Proof.Arr1
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.ShloMosaic.ValueIdx Cert.Chamfer Idealize.SL.Sem Idealize.ShloMosaic.StableHlo
open Idealize.ShloMosaic.Pipeline (Dat)

variable (m : (ℓ : Loc nD τ sig) → Buf (Elt Ideal) ℓ) (ρ : Dev nD → PrngReg)

/-- The arguments as launched, at their literal types. -/
abbrev gtM (c : Dev nD) : S2x8192x3.Idx → EReal := m ((c : Thread nD τ).loc main_arg0)
abbrev predM (c : Dev nD) : S2x8192x3.Idx → EReal := m ((c : Thread nD τ).loc main_arg1)
abbrev maskM (c : Dev nD) : S2x8192.Idx → EReal := m ((c : Thread nD τ).loc main_arg2)
abbrev confM (c : Dev nD) : S2x8192.Idx → EReal := m ((c : Thread nD τ).loc main_arg3)

/-! ## What the first region finds -/

theorem V1_arg0 (c : Dev nD) : (V1 m ρ c main_arg0 : S2x8192x3.Idx → EReal) = gtM m c := by
  show StableHlo.after hostOps0 (W0 m ρ c) (Proc.devRef .tc main_arg0) = _
  after_results
theorem V1_arg1 (c : Dev nD) : (V1 m ρ c main_arg1 : S2x8192x3.Idx → EReal) = predM m c := by
  show StableHlo.after hostOps0 (W0 m ρ c) (Proc.devRef .tc main_arg1) = _
  after_results
theorem V1_v0 (c : Dev nD) : (V1 m ρ c main_v0 : S2x8192x1.Idx → EReal)
    = broadcastInDim S2x8192x1 ![0, 1] bcast_S2x8192_S2x8192x1_0_1 (maskM m c) := by
  show StableHlo.after hostOps0 (W0 m ρ c) (Proc.devRef .tc main_v0) = _
  after_results
theorem V1_v1 (c : Dev nD) : (V1 m ρ c main_v1 : S2x8192x1.Idx → EReal)
    = broadcastInDim S2x8192x1 ![0, 1] bcast_S2x8192_S2x8192x1_0_1 (confM m c) := by
  show StableHlo.after hostOps0 (W0 m ρ c) (Proc.devRef .tc main_v1) = _
  after_results

/-! ## What the second region finds: the first region's inputs as it found them -/

theorem V2_arg0 (c : Dev nD) : (V2 m ρ c main_arg0 : S2x8192x3.Idx → EReal) = gtM m c :=
  ((W2_arr m ρ c 1).trans (((dat0 (V1 m ρ) c).arrAt_in 1 rfl _).trans (A_eq0 (V1 m ρ) c 1))).trans (V1_arg0 m ρ c)
theorem V2_arg1 (c : Dev nD) : (V2 m ρ c main_arg1 : S2x8192x3.Idx → EReal) = predM m c :=
  ((W2_arr m ρ c 0).trans (((dat0 (V1 m ρ) c).arrAt_in 0 rfl _).trans (A_eq0 (V1 m ρ) c 0))).trans (V1_arg1 m ρ c)
theorem V2_v0 (c : Dev nD) : (V2 m ρ c main_v0 : S2x8192x1.Idx → EReal)
    = broadcastInDim S2x8192x1 ![0, 1] bcast_S2x8192_S2x8192x1_0_1 (maskM m c) :=
  ((W2_arr m ρ c 2).trans (((dat0 (V1 m ρ) c).arrAt_in 2 rfl _).trans (A_eq0 (V1 m ρ) c 2))).trans (V1_v0 m ρ c)

/-! ## The last boundary at the three results -/

theorem W4_v4 (c : Dev nD) : W4 m ρ c (Proc.devRef .tc main_v4)
    = shapeCast S2x8192 (Arr0.lossArr (gtM m c) (predM m c) (maskM m c)) shapeCasts_S2x8192x1_S2x8192 := by
  have e : W3 m ρ c (Proc.devRef .tc main_v2_0) = Arr0.lossArr (gtM m c) (predM m c) (maskM m c) := by
    refine ((W3_of_ne m ρ c main_v2_0 (by decide)).trans (W2_arr m ρ c 4)).trans ?_
    refine (Arr0.final4 (V1 m ρ) c (maskM m c) (V1_v0 m ρ c)).trans ?_
    show Arr0.lossArr (V1 m ρ c main_arg0) (V1 m ρ c main_arg1) (maskM m c) = _
    rw [V1_arg0, V1_arg1]
  show StableHlo.after hostOps2 (W3 m ρ c) (Proc.devRef .tc main_v4) = _
  after_results
  rw [e]
  rfl

theorem W4_v5 (c : Dev nD) : W4 m ρ c (Proc.devRef .tc main_v5)
    = shapeCast S2x8192 (Arr0.confArr (gtM m c) (predM m c) (maskM m c) (confM m c)) shapeCasts_S2x8192x1_S2x8192 := by
  have e : W3 m ρ c (Proc.devRef .tc main_v2_1) = Arr0.confArr (gtM m c) (predM m c) (maskM m c) (confM m c) := by
    refine ((W3_of_ne m ρ c main_v2_1 (by decide)).trans (W2_arr m ρ c 5)).trans ?_
    refine (Arr0.final5 (V1 m ρ) c (maskM m c) (confM m c) (V1_v0 m ρ c) (V1_v1 m ρ c)).trans ?_
    show Arr0.confArr (V1 m ρ c main_arg0) (V1 m ρ c main_arg1) (maskM m c) (confM m c) = _
    rw [V1_arg0, V1_arg1]
  show StableHlo.after hostOps2 (W3 m ρ c) (Proc.devRef .tc main_v5) = _
  after_results
  rw [e]
  rfl

theorem W4_v6 (c : Dev nD) : W4 m ρ c (Proc.devRef .tc main_v6)
    = shapeCast S2x8192 (Arr1.gtLossArr (gtM m c) (predM m c) (maskM m c)) shapeCasts_S2x8192x1_S2x8192 := by
  have e : W3 m ρ c (Proc.devRef .tc main_v3) = Arr1.gtLossArr (gtM m c) (predM m c) (maskM m c) := by
    refine (W3_arr m ρ c 3).trans ?_
    refine (Arr1.final3 (V2 m ρ) c (maskM m c) (V2_v0 m ρ c)).trans ?_
    show Arr1.gtLossArr (V2 m ρ c main_arg0) (V2 m ρ c main_arg1) (maskM m c) = _
    rw [V2_arg0, V2_arg1]
  show StableHlo.after hostOps2 (W3 m ρ c) (Proc.devRef .tc main_v6) = _
  after_results
  rw [e]
  rfl

end Cert.KernelIdeal.Results

end
-- ==== Proof.RefValue.lean ====
/-
  The reference program's three results, read at one point of the batch, are the specification's scalar functions.

  The reference scales each predicted point by its mask, takes the square norms of the masked predicted points and of
  the ground-truth points as sums over the three coordinates, spreads them over all pairs (i, j), takes the inner
  products of all pairs as one contraction over the coordinate axis, and forms `max (‖p‖² + ‖g‖² − 2·(p·g)) 0` at every
  pair: at the pair (i, j) of cloud b this is the clamped squared distance `sqd b i j`. A minimum over the last axis,
  started from the infinity, is at (b, i) the fold of `min` over j of the row i: `nearGt`. A minimum over the middle
  axis is at (b, j) the fold of `min` over i of the column j: `nearPred`. The roots, the factor a hundred, the
  confidence, its logarithm and the mask are elementwise.

  Each lemma reads one array of the reference at an index given by its coordinates. The layout operations read their
  operand at an index computed from the literal shapes; at an index given by coordinates that index is again given by
  coordinates, each coordinate by computation. The two sums start from the zero word, which is the number zero.
-/
import proofs.«149853_j5085241278567_1_alg».proof.Proof.Gen.ReferenceIdeal.Read
import proofs.«149853_j5085241278567_1_alg».proof.Proof.Spec
import Idealize.ShloMosaic.Lib.ValueIdx
import Idealize.ShloMosaic.PureOps.Ideal.Laws
import Idealize.ShloMosaic.PureOps.Reduce

noncomputable section

namespace Cert.Chamfer.Ref

open Cert.ReferenceIdeal Cert.ReferenceIdeal.Gen Cert.ReferenceIdeal.Read Idealize.ShloMosaic Idealize.ShloMosaic.ValueIdx

/-! ## A minimum over one axis of the array of all pairs, at a point given by its coordinates -/

/-- The minimum over the last axis, at (b, i): the fold of `min` over j of the array at (b, i, j). -/
theorem reduce_min_last (y : (⟨S2x8192x8192, .f32⟩ : BufTy).Contents (Elt Ideal)) (init : (⟨S_, .f32⟩ : BufTy).Contents (Elt Ideal))
    (f : Fin 8192 → EReal) (b : Fin 2) (i : Fin 8192) (hy : ∀ j : Fin 8192, y (ix3 b i j) = f j) :
    Host.reduce (FloatOps.minimumf (F := Ideal) (φ := .f32)) y init reducesTo_S2x8192x8192_S2x8192_d2 h_S_ (ix2 b i)
      = (Finset.univ : Finset (Fin 8192)).fold min (init (Shape.Idx.first h_S_)) f := by
  have h : S2x8192x8192.Reduces [2] S2x8192 := by decide
  rw [Host.reduce_eq_fold_single (FloatOps.minimumf (F := Ideal) (φ := .f32)) y init reducesTo_S2x8192x8192_S2x8192_d2 h h_S_ (ix2 b i)]
  have e : (y ∘ h.lift (ix2 b i)) = f := funext fun j => by
    show y (h.lift (ix2 b i) j) = f j
    rw [← hy j]
    exact congrArg y (funext fun a => Fin.ext (by match a with | ⟨0, _⟩ => rfl | ⟨1, _⟩ => rfl | ⟨2, _⟩ => rfl))
  rw [e]
  rfl

/-- The minimum over the middle axis, at (b, j): the fold of `min` over i of the array at (b, i, j). -/
theorem reduce_min_mid (y : (⟨S2x8192x8192, .f32⟩ : BufTy).Contents (Elt Ideal)) (init : (⟨S_, .f32⟩ : BufTy).Contents (Elt Ideal))
    (f : Fin 8192 → EReal) (b : Fin 2) (j : Fin 8192) (hy : ∀ i : Fin 8192, y (ix3 b i j) = f i) :
    Host.reduce (FloatOps.minimumf (F := Ideal) (φ := .f32)) y init reducesTo_S2x8192x8192_S2x8192_d1 h_S_ (ix2 b j)
      = (Finset.univ : Finset (Fin 8192)).fold min (init (Shape.Idx.first h_S_)) f := by
  have h : S2x8192x8192.Reduces [1] S2x8192 := by decide
  rw [Host.reduce_eq_fold_single (FloatOps.minimumf (F := Ideal) (φ := .f32)) y init reducesTo_S2x8192x8192_S2x8192_d1 h h_S_ (ix2 b j)]
  have e : (y ∘ h.lift (ix2 b j)) = f := funext fun i => by
    show y (h.lift (ix2 b j) i) = f i
    rw [← hy i]
    exact congrArg y (funext fun a => Fin.ext (by match a with | ⟨0, _⟩ => rfl | ⟨1, _⟩ => rfl | ⟨2, _⟩ => rfl))
  rw [e]
  rfl

section
variable (x0 x1 : (⟨S2x8192x3, .f32⟩ : BufTy).Contents (Elt Ideal)) (x2 x3 : (⟨S2x8192, .f32⟩ : BufTy).Contents (Elt Ideal))

/-! ## The points -/

/-- The masked predicted cloud at (b, i, d) is coordinate d of the masked predicted point. -/
theorem v2_at (b : Fin 2) (i : Fin 8192) (d : Fin 3) :
    val_main_v2 (F := Ideal) x1 x2 (ix3 b i d) = mpt x1 x2 b i d := by
  show val_main_v2 (F := Ideal) x1 x2 (ix3 b i d) = x1 (ix3 b i d) * x2 (ix2 b i)
  rw [val_main_v2_apply, val_main_v1_apply, val_main_v0_apply,
    show idx_main_v0 (idx_main_v1 (ix3 b i d)) = ix2 b i from funext fun a => Fin.ext (by match a with | ⟨0, _⟩ => rfl | ⟨1, _⟩ => rfl), Ideal.mulf_def]

/-- The square norm of the masked predicted point i. -/
theorem v4_at (b : Fin 2) (i : Fin 8192) :
    val_main_v4 (F := Ideal) x1 x2 (ix2 b i) = ∑ d : Fin 3, mpt x1 x2 b i d * mpt x1 x2 b i d := by
  rw [val_main_v4_apply, val_main_cst_apply, Ideal.ofBits_def, Ideal.ofBits_zero_f32, zero_add]
  refine Finset.sum_congr rfl fun d _ => ?_
  rw [show idx_main_v4 (ix2 b i) d = ix3 b i d from funext fun a => Fin.ext (by match a with | ⟨0, _⟩ => rfl | ⟨1, _⟩ => rfl | ⟨2, _⟩ => rfl),
    val_main_v3_apply, v2_at, Ideal.mulf_def]

/-- The square norm of the ground-truth point j. -/
theorem v6_at (b : Fin 2) (j : Fin 8192) :
    val_main_v6 (F := Ideal) x0 (ix2 b j) = ∑ d : Fin 3, gpt x0 b j d * gpt x0 b j d := by
  rw [val_main_v6_apply, val_main_cst_0_apply, Ideal.ofBits_def, Ideal.ofBits_zero_f32, zero_add]
  refine Finset.sum_congr rfl fun d _ => ?_
  rw [show idx_main_v6 (ix2 b j) d = ix3 b j d from funext fun a => Fin.ext (by match a with | ⟨0, _⟩ => rfl | ⟨1, _⟩ => rfl | ⟨2, _⟩ => rfl),
    val_main_v5_apply, Ideal.mulf_def]
  rfl

/-! ## All pairs -/

/-- The predicted side's square norm, spread over the pairs. -/
theorem v9_at (b : Fin 2) (i j : Fin 8192) :
    val_main_v9 (F := Ideal) x1 x2 (ix3 b i j) = ∑ d : Fin 3, mpt x1 x2 b i d * mpt x1 x2 b i d := by
  rw [val_main_v9_apply, val_main_v7_apply,
    show idx_main_v7 (idx_main_v9 (ix3 b i j)) = ix2 b i from funext fun a => Fin.ext (by match a with | ⟨0, _⟩ => rfl | ⟨1, _⟩ => rfl), v4_at]

/-- The ground-truth side's square norm, spread over the pairs. -/
theorem v10_at (b : Fin 2) (i j : Fin 8192) :
    val_main_v10 (F := Ideal) x0 (ix3 b i j) = ∑ d : Fin 3, gpt x0 b j d * gpt x0 b j d := by
  rw [val_main_v10_apply, val_main_v8_apply,
    show idx_main_v8 (idx_main_v10 (ix3 b i j)) = ix2 b j from funext fun a => Fin.ext (by match a with | ⟨0, _⟩ => rfl | ⟨1, _⟩ => rfl), v6_at]

/-- The inner product of the masked predicted point i with the ground-truth point j. -/
theorem v12_at (b : Fin 2) (i j : Fin 8192) :
    val_main_v12 (F := Ideal) x0 x1 x2 (ix3 b i j) = ∑ d : Fin 3, mpt x1 x2 b i d * gpt x0 b j d := by
  rw [val_main_v12_apply]
  refine Finset.sum_congr rfl fun d _ => ?_
  rw [show lidx_main_v12 (ix3 b i j) d = ix3 b i d from funext fun a => Fin.ext (by match a with | ⟨0, _⟩ => rfl | ⟨1, _⟩ => rfl | ⟨2, _⟩ => rfl),
    show ridx_main_v12 (ix3 b i j) d = ix3 b j d from funext fun a => Fin.ext (by match a with | ⟨0, _⟩ => rfl | ⟨1, _⟩ => rfl | ⟨2, _⟩ => rfl), v2_at]
  rfl

/-- The word two, everywhere. -/
theorem v13_at (p : S2x8192x8192.Idx) : val_main_v13 (F := Ideal) p = wTwo := by
  rw [val_main_v13_apply, val_main_cst_1_apply, Ideal.ofBits_def]

/-- The word zero, everywhere. -/
theorem v16_at (p : S2x8192x8192.Idx) : val_main_v16 (F := Ideal) p = wZero := by
  rw [val_main_v16_apply, val_main_cst_2_apply, Ideal.ofBits_def]

/-- The clamped squared distance of the pair (i, j). -/
theorem v17_at (b : Fin 2) (i j : Fin 8192) :
    val_main_v17 (F := Ideal) x0 x1 x2 (ix3 b i j) = sqd x0 x1 x2 b i j := by
  rw [val_main_v17_apply, val_main_v15_apply, val_main_v11_apply, val_main_v14_apply, v9_at, v10_at, v12_at, v13_at,
    v16_at, Ideal.maximumf_def, Ideal.subf_def, Ideal.addf_def, Ideal.mulf_def]
  rfl

/-! ## The two minima -/

/-- Each predicted point's least squared distance. -/
theorem v18_at (b : Fin 2) (i : Fin 8192) :
    val_main_v18 (F := Ideal) x0 x1 x2 (ix2 b i) = nearGt x0 x1 x2 b i := by
  unfold val_main_v18 nearGt
  rw [reduce_min_last _ _ (fun j => sqd x0 x1 x2 b i j) b i (fun j => v17_at x0 x1 x2 b i j), val_main_cst_3_apply,
    Ideal.ofBits_def]

/-- Each ground-truth point's least squared distance. -/
theorem v22_at (b : Fin 2) (j : Fin 8192) :
    val_main_v22 (F := Ideal) x0 x1 x2 (ix2 b j) = nearPred x0 x1 x2 b j := by
  unfold val_main_v22 nearPred
  rw [reduce_min_mid _ _ (fun i => sqd x0 x1 x2 b i j) b j (fun i => v17_at x0 x1 x2 b i j), val_main_cst_5_apply,
    Ideal.ofBits_def]

/-! ## The losses -/

/-- The word a hundred, at every point (the predicted side's copy). -/
theorem v20_at (p : S2x8192.Idx) : val_main_v20 (F := Ideal) p = wHundred := by
  rw [val_main_v20_apply, val_main_cst_4_apply, Ideal.ofBits_def]

/-- The word a hundred, at every point (the ground-truth side's copy). -/
theorem v24_at (p : S2x8192.Idx) : val_main_v24 (F := Ideal) p = wHundred := by
  rw [val_main_v24_apply, val_main_cst_6_apply, Ideal.ofBits_def]

/-- The word one, at every point. -/
theorem v28_at (p : S2x8192.Idx) : val_main_v28 (F := Ideal) p = wOne := by
  rw [val_main_v28_apply, val_main_cst_7_apply, Ideal.ofBits_def]

/-- A predicted point's loss before the mask. -/
theorem v21_at (b : Fin 2) (i : Fin 8192) :
    val_main_v21 (F := Ideal) x0 x1 x2 (ix2 b i) = lossPred x0 x1 x2 b i := by
  rw [val_main_v21_apply, val_main_v19_apply, v18_at, v20_at, Ideal.hostUnary_sqrt_def, Ideal.mulf_def]
  rfl

end

/-! ## The three results -/

/-- The confidence-weighted result is `lossConf`. -/
theorem ref_lossConf (x0 x1 : (⟨Cert.ReferenceIdeal.S2x8192x3, .f32⟩ : BufTy).Contents (Elt Ideal))
    (x2 x3 : (⟨Cert.ReferenceIdeal.S2x8192, .f32⟩ : BufTy).Contents (Elt Ideal)) (b : Fin 2) (i : Fin 8192) :
    Cert.ReferenceIdeal.Read.val_main_v31 (F := Ideal) x0 x1 x2 x3 (ValueIdx.ix2 b i) = Cert.Chamfer.lossConf x0 x1 x2 x3 b i := by
  rw [val_main_v31_apply, val_main_v30_apply, val_main_v26_apply, val_main_v29_apply, val_main_v27_apply, v21_at, v28_at,
    Ideal.hostUnary_log_def, Ideal.mulf_def, Ideal.mulf_def, Ideal.mulf_def, Ideal.subf_def]
  rfl

/-- The masked result is `lossMasked`. -/
theorem ref_lossMasked (x0 x1 : (⟨Cert.ReferenceIdeal.S2x8192x3, .f32⟩ : BufTy).Contents (Elt Ideal))
    (x2 : (⟨Cert.ReferenceIdeal.S2x8192, .f32⟩ : BufTy).Contents (Elt Ideal)) (b : Fin 2) (i : Fin 8192) :
    Cert.ReferenceIdeal.Read.val_main_v32 (F := Ideal) x0 x1 x2 (ValueIdx.ix2 b i) = Cert.Chamfer.lossMasked x0 x1 x2 b i := by
  rw [val_main_v32_apply, v21_at, Ideal.mulf_def]
  rfl

/-- The ground-truth side's result is `lossGt`. -/
theorem ref_lossGt (x0 x1 : (⟨Cert.ReferenceIdeal.S2x8192x3, .f32⟩ : BufTy).Contents (Elt Ideal))
    (x2 : (⟨Cert.ReferenceIdeal.S2x8192, .f32⟩ : BufTy).Contents (Elt Ideal)) (b : Fin 2) (j : Fin 8192) :
    Cert.ReferenceIdeal.Read.val_main_v25 (F := Ideal) x0 x1 x2 (ValueIdx.ix2 b j) = Cert.Chamfer.lossGt x0 x1 x2 b j := by
  rw [val_main_v25_apply, val_main_v23_apply, v22_at, v24_at, Ideal.hostUnary_sqrt_def, Ideal.mulf_def]
  rfl

end Cert.Chamfer.Ref

end
-- ==== Proof.lean ====
/-
  The certificate: the kernel program and its reference compute the same three arrays over the extended reals.

  Both compute a two-sided nearest-neighbour loss between two batches of point clouds (proof/Proof/Spec.lean): every
  predicted point is scaled by its mask, the squared distance of a pair of points is the clamped expansion
  `max (‖p‖² + ‖g‖² − 2·(p·g)) 0`, each predicted point's loss is a hundred roots of its least squared distance over
  the ground-truth cloud (returned masked, and once more confidence-weighted with the confidence's logarithm taken
  off), and each ground-truth point's loss is a hundred roots of its least squared distance over the predicted cloud.

  The reference forms the whole 8192 × 8192 table of squared distances and takes its row and column minima. The program
  never holds the table: two kernel regions each take 512 points at a grid point and sweep the other cloud in four
  quarters of 2048 points, folding each quarter's row minima into a running minimum. The two agree because a minimum
  over 8192 indices is the minimum of the four quarter minima folded one after the other, and because the expansion is
  symmetric in its two points (the second region pairs the points the other way round); sums, products, maxima and
  minima are read on every extended real, so no finiteness of the inputs is used. The square roots, the logarithm and
  the literal words are the same functions and the same words on both sides.

  The three frames are the generated ones (the reference's is its generated run with the results dropped); the
  idealization rewrote nothing, so nothing is owed for it. For the value claim the program's run is read with its
  result buffers named (proof/Proof/KernelRun.lean), each result is traced through the closing reshapes to a region's
  output array (proof/Proof/Results.lean), the output arrays are the specification's functions block by block
  (proof/Proof/Arr0.lean, Arr1.lean over Body0.lean, Body1.lean, Body.lean, Tile.lean), and the reference's generated
  run is read at an index to the same functions (proof/Proof/RefValue.lean).
-/
import proofs.«149853_j5085241278567_1_alg».proof.Defs
import proofs.«149853_j5085241278567_1_alg».proof.Proof.Gen.Kernel
import proofs.«149853_j5085241278567_1_alg».proof.Proof.Gen.Kernel.Skeleton
import proofs.«149853_j5085241278567_1_alg».proof.Proof.Gen.Kernel.Launch
import proofs.«149853_j5085241278567_1_alg».proof.Proof.Gen.Kernel.Points
import proofs.«149853_j5085241278567_1_alg».proof.Proof.Gen.Kernel.Frame
import proofs.«149853_j5085241278567_1_alg».proof.Proof.Gen.KernelIdeal
import proofs.«149853_j5085241278567_1_alg».proof.Proof.Gen.KernelIdeal.Skeleton
import proofs.«149853_j5085241278567_1_alg».proof.Proof.Gen.KernelIdeal.Launch
import proofs.«149853_j5085241278567_1_alg».proof.Proof.Gen.KernelIdeal.Points
import proofs.«149853_j5085241278567_1_alg».proof.Proof.Gen.KernelIdeal.Frame
import proofs.«149853_j5085241278567_1_alg».proof.Proof.Gen.ReferenceIdeal
import proofs.«149853_j5085241278567_1_alg».proof.Proof.Gen.Pre_finite_inputs
import proofs.«149853_j5085241278567_1_alg».proof.Proof.Gen.ReferenceIdeal.Run
import proofs.«149853_j5085241278567_1_alg».proof.Proof.Gen.ReferenceIdeal.Read
import proofs.«149853_j5085241278567_1_alg».proof.Proof.KernelRun
import proofs.«149853_j5085241278567_1_alg».proof.Proof.Results
import proofs.«149853_j5085241278567_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.Chamfer

/-! ## The program's result arrays are the reference's -/

/-- Dropping the trailing unit axis of an array written by cloud and point reads it at the same cloud and point. -/
theorem dropUnit_apply {α : Type} (x : Cert.KernelIdeal.S2x8192x1.Idx → α) (b : Fin 2) (i : Fin 8192) :
    shapeCast Cert.KernelIdeal.S2x8192 x Cert.KernelIdeal.Gen.shapeCasts_S2x8192x1_S2x8192 (ix2 b i) = x (ix3 b i (0 : Fin 1)) :=
  shapeCast_apply x _ _ _ (by
    rw [Shape.rowMajor_val_three, Shape.rowMajor_val_two]
    show (b.val * 8192 + i.val) * 1 + 0 = b.val * 8192 + i.val
    omega)

theorem conf_bridge (gt pred : Pts.Idx → EReal) (mask conf : Per.Idx → EReal) :
    shapeCast Cert.KernelIdeal.S2x8192 (Cert.KernelIdeal.Arr0.confArr gt pred mask conf) Cert.KernelIdeal.Gen.shapeCasts_S2x8192x1_S2x8192
      = Cert.ReferenceIdeal.Read.val_main_v31 (F := Ideal) gt pred mask conf := by
  funext z
  obtain ⟨b, i, rfl⟩ : ∃ (b : Fin 2) (i : Fin 8192), z = ix2 b i := ⟨z 0, z 1, eq_ix2 z⟩
  rw [Cert.Chamfer.Ref.ref_lossConf, dropUnit_apply]
  rfl

theorem loss_bridge (gt pred : Pts.Idx → EReal) (mask : Per.Idx → EReal) :
    shapeCast Cert.KernelIdeal.S2x8192 (Cert.KernelIdeal.Arr0.lossArr gt pred mask) Cert.KernelIdeal.Gen.shapeCasts_S2x8192x1_S2x8192
      = Cert.ReferenceIdeal.Read.val_main_v32 (F := Ideal) gt pred mask := by
  funext z
  obtain ⟨b, i, rfl⟩ : ∃ (b : Fin 2) (i : Fin 8192), z = ix2 b i := ⟨z 0, z 1, eq_ix2 z⟩
  rw [Cert.Chamfer.Ref.ref_lossMasked, dropUnit_apply]
  rfl

theorem gt_bridge (gt pred : Pts.Idx → EReal) (mask : Per.Idx → EReal) :
    shapeCast Cert.KernelIdeal.S2x8192 (Cert.KernelIdeal.Arr1.gtLossArr gt pred mask) Cert.KernelIdeal.Gen.shapeCasts_S2x8192x1_S2x8192
      = Cert.ReferenceIdeal.Read.val_main_v25 (F := Ideal) gt pred mask := by
  funext z
  obtain ⟨b, i, rfl⟩ : ∃ (b : Fin 2) (i : Fin 8192), z = ix2 b i := ⟨z 0, z 1, eq_ix2 z⟩
  rw [Cert.Chamfer.Ref.ref_lossGt, dropUnit_apply]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the four arguments both programs end with the reference's three arrays of the
    arguments: the program's by the run read at its results and the bridges above, the reference's by its generated
    run. -/
theorem algebraic : Cert.algebraic_KernelIdeal_ReferenceIdeal := by
  intro m ρ m' ρ' _ hagree
  refine ⟨fun c => Cert.ReferenceIdeal.Read.val_main_v31 (F := Ideal) (Cert.KernelIdeal.Results.gtM m c) (Cert.KernelIdeal.Results.predM m c)
      (Cert.KernelIdeal.Results.maskM m c) (Cert.KernelIdeal.Results.confM m c),
    fun c => Cert.ReferenceIdeal.Read.val_main_v32 (F := Ideal) (Cert.KernelIdeal.Results.gtM m c) (Cert.KernelIdeal.Results.predM m c)
      (Cert.KernelIdeal.Results.maskM m c),
    fun c => Cert.ReferenceIdeal.Read.val_main_v25 (F := Ideal) (Cert.KernelIdeal.Results.gtM m c) (Cert.KernelIdeal.Results.predM m c)
      (Cert.KernelIdeal.Results.maskM m c), ?_, ?_⟩
  · refine (θ_run Cert.KernelIdeal.defs _ _).mono (fun r h c => ?_) (Cert.KernelIdeal.Named.run_named (F := Ideal) m ρ)
    obtain ⟨h5, h4, h6, ha⟩ := h c
    exact ⟨h5.trans ((Cert.KernelIdeal.Results.W4_v5 m ρ c).trans (conf_bridge _ _ _ _)),
      h4.trans ((Cert.KernelIdeal.Results.W4_v4 m ρ c).trans (loss_bridge _ _ _)),
      h6.trans ((Cert.KernelIdeal.Results.W4_v6 m ρ c).trans (gt_bridge _ _ _)), ha⟩
  · refine (θ_run Cert.ReferenceIdeal.defs _ _).mono (fun r h c => ?_) (Cert.ReferenceIdeal.Value.run (F := Ideal) m' ρ')
    obtain ⟨h31, h32, h25, ha⟩ := h c
    obtain ⟨e0, e1, e2, e3⟩ := hagree c
    refine ⟨h31.trans ?_, h32.trans ?_, h25.trans ?_, ha⟩
    · rw [e0, e1, e2, e3]
      exact Cert.ReferenceIdeal.Read.val_main_v31_eq (F := Ideal) _ _ _ _
    · rw [e0, e1, e2]
      exact Cert.ReferenceIdeal.Read.val_main_v32_eq (F := Ideal) _ _ _
    · rw [e0, e1, e2]
      exact Cert.ReferenceIdeal.Read.val_main_v25_eq (F := Ideal) _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
